-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5_3)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v5_1)) (v3 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_3) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_v5_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S1x2048 : Shape := ⟨2, ![1, 2048]⟩
abbrev S2048x2048 : Shape := ⟨2, ![2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part3 {F : FTy → Type} [FloatOps F] (main_arg11 : FVec F S2048x2048 .f32) (main_arg12 : FVec F S2048x2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  main_v63

def fn_part2 {F : FTy → Type} [FloatOps F] (main_arg7 : FVec F S1x2048 .f32) (main_arg8 : FVec F S1x2048 .f32) (main_arg9 : FVec F S2048x2048 .f32) (main_arg10 : FVec F S2048x2048 .f32) (main_arg11 : FVec F S2048x2048 .f32) (main_arg12 : FVec F S2048x2048 .f32) (main_v33 : IVec S_ 1) : IVec S_ 1 :=
  let main_v34 : FVec F S1x2048 .f32 := Host.absf main_arg7
  let main_cst_12 : FVec F S_ .f32 := constant S_ .f32 0x7F800000#32
  let main_v35 : FVec F S1x2048 .f32 := broadcastInDim S1x2048 ![] bcast_S_S1x2048 main_cst_12
  let main_v36 : IVec S1x2048 1 := cmpf .olt main_v34 main_v35
  let main_c_13 : IVec S_ 1 := constantI S_ 1 1#1
  let main_v37 : IVec S_ 1 := (fun x v => Host.reduce IntOp.andi x v reducesTo_S1x2048_S_d0_1 h_S_) main_v36 main_c_13
  let main_v38 : IVec S_ 1 := andi main_v33 main_v37
  let main_v39 : FVec F S1x2048 .f32 := Host.absf main_arg8
  let main_cst_14 : FVec F S_ .f32 := constant S_ .f32 0x7F800000#32
  let main_v40 : FVec F S1x2048 .f32 := broadcastInDim S1x2048 ![] bcast_S_S1x2048 main_cst_14
  let main_v41 : IVec S1x2048 1 := cmpf .olt main_v39 main_v40
  let main_c_15 : IVec S_ 1 := constantI S_ 1 1#1
  let main_v42 : IVec S_ 1 := (fun x v => Host.reduce IntOp.andi x v reducesTo_S1x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_v48 main_v49 main_v50

def fn_part1 {F : FTy → Type} [FloatOps F] (main_arg4 : FVec F S1x2048 .f32) (main_arg5 : FVec F S1x2048 .f32) (main_arg6 : FVec F S1x2048 .f32) (main_arg7 : FVec F S1x2048 .f32) (main_arg8 : FVec F S1x2048 .f32) (main_arg9 : FVec F S2048x2048 .f32) (main_arg10 : FVec F S2048x2048 .f32) (main_arg11 : FVec F S2048x2048 .f32) (main_arg12 : FVec F S2048x2048 .f32) (main_v13 : IVec S_ 1) (main_v16 : IVec S16384x2048 1) : IVec S_ 1 :=
  let main_c_5 : IVec S_ 1 := constantI S_ 1 1#1
  let main_v17 : IVec S_ 1 := (fun x v => Host.reduce IntOp.andi x v reducesTo_S16384x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1x2048 .f32 := Host.absf main_arg5
  let main_cst_8 : FVec F S_ .f32 := constant S_ .f32 0x7F800000#32
  let main_v25 : FVec F S1x2048 .f32 := broadcastInDim S1x2048 ![] bcast_S_S1x2048 main_cst_8
  let main_v26 : IVec S1x2048 1 := cmpf .olt main_v24 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v23 main_v27
  let main_v29 : FVec F S1x2048 .f32 := Host.absf main_arg6
  let main_cst_10 : FVec F S_ .f32 := constant S_ .f32 0x7F800000#32
  let main_v30 : FVec F S1x2048 .f32 := broadcastInDim S1x2048 ![] bcast_S_S1x2048 main_cst_10
  let main_v31 : IVec S1x2048 1 := cmpf .olt main_v29 main_v30
  let main_c_11 : IVec S_ 1 := constantI S_ 1 1#1
  let main_v32 : IVec S_ 1 := (fun x v => Host.reduce IntOp.andi x v reducesTo_S1x2048_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x2048 .f32) (main_arg1 : FVec F S16384x2048 .f32) (main_arg2 : FVec F S16384x2048 .f32) (main_arg3 : FVec F S16384x2048 .f32) (main_arg4 : FVec F S1x2048 .f32) (main_arg5 : FVec F S1x2048 .f32) (main_arg6 : FVec F S1x2048 .f32) (main_arg7 : FVec F S1x2048 .f32) (main_arg8 : FVec F S1x2048 .f32) (main_arg9 : FVec F S2048x2048 .f32) (main_arg10 : FVec F S2048x2048 .f32) (main_arg11 : FVec F S2048x2048 .f32) (main_arg12 : FVec F S2048x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x2048 .f32 := Host.absf main_arg2
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v9 main_v10
  let main_c_3 : IVec S_ 1 := constantI S_ 1 1#1
  let main_v12 : IVec S_ 1 := (fun x v => Host.reduce IntOp.andi x v reducesTo_S16384x2048_S_d0_1 h_S_) main_v11 main_c_3
  let main_v13 : IVec S_ 1 := andi main_v8 main_v12
  let main_v14 : FVec F S16384x2048 .f32 := Host.absf main_arg3
  let main_cst_4 : FVec F S_ .f32 := constant S_ .f32 0x7F800000#32
  let main_v15 : FVec F S16384x2048 .f32 := broadcastInDim S16384x2048 ![] bcast_S_S16384x2048 main_cst_4
  let main_v16 : IVec S16384x2048 1 := cmpf .olt main_v14 main_v15
  fn_part1 (F := F) main_arg4 main_arg5 main_arg6 main_arg7 main_arg8 main_arg9 main_arg10 main_arg11 main_arg12 main_v13 main_v16
-- ==== Kernel.lean ====
abbrev S16384x2048 : Shape := ⟨2, ![16384, 2048]⟩
abbrev S1x2048 : Shape := ⟨2, ![1, 2048]⟩
abbrev S2048x2048 : Shape := ⟨2, ![2048, 2048]⟩
abbrev S128x2048 : Shape := ⟨2, ![128, 2048]⟩

abbrev nBuf : Space → Nat
  | .hbm => 24
  | .vmem => 39
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .bf16⟩
  | .hbm, ⟨14, _⟩ => ⟨S2048x2048, .bf16⟩
  | .hbm, ⟨15, _⟩ => ⟨S2048x2048, .bf16⟩
  | .hbm, ⟨16, _⟩ => ⟨S2048x2048, .bf16⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S2048x2048, .bf16⟩
  | .local _ .vmem, ⟨8, _⟩ => ⟨S2048x2048, .bf16⟩
  | .local _ .vmem, ⟨9, _⟩ => ⟨S2048x2048, .bf16⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S1x2048, .f32⟩
  | .local _ .vmem, ⟨29, _⟩ => ⟨S1x2048, .f32⟩
  | .local _ .vmem, ⟨30, _⟩ => ⟨S2048x2048, .bf16⟩
  | .local _ .vmem, ⟨31, _⟩ => ⟨S128x2048, .f32⟩
  | .local _ .vmem, ⟨32, _⟩ => ⟨S128x2048, .f32⟩
  | .local _ .vmem, ⟨33, _⟩ => ⟨S128x2048, .f32⟩
  | .local _ .vmem, ⟨34, _⟩ => ⟨S128x2048, .f32⟩
  | .local _ .vmem, ⟨35, _⟩ => ⟨S128x2048, .f32⟩
  | .local _ .vmem, ⟨36, _⟩ => ⟨S128x2048, .f32⟩
  | .local _ .vmem, ⟨37, _⟩ => ⟨S128x2048, .f32⟩
  | .local _ .vmem, ⟨38, _⟩ => ⟨S128x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v5_0 : Ref sig .tc := ⟨.hbm, 20, rfl⟩
abbrev main_v5_1 : Ref sig .tc := ⟨.hbm, 21, rfl⟩
abbrev main_v5_2 : Ref sig .tc := ⟨.hbm, 22, rfl⟩
abbrev main_v5_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg10_1 : Ref sig .tc := ⟨.vmem, 34, rfl⟩
abbrev cc1_stg11_0 : Ref sig .tc := ⟨.vmem, 35, rfl⟩
abbrev cc1_stg11_1 : Ref sig .tc := ⟨.vmem, 36, rfl⟩
abbrev cc1_stg12_0 : Ref sig .tc := ⟨.vmem, 37, rfl⟩
abbrev cc1_stg12_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem9_1 : DmaSem sig := 32
abbrev cc1_sem10_0 : DmaSem sig := 33
abbrev cc1_sem10_1 : DmaSem sig := 34
abbrev cc1_sem11_0 : DmaSem sig := 35
abbrev cc1_sem11_1 : DmaSem sig := 36
abbrev cc1_sem12_0 : DmaSem sig := 37
abbrev cc1_sem12_1 : DmaSem sig := 38

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2048x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S128x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S128x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S128x2048 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S128x2048 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  inb_S1x2048_S1x2048_0_0 : ∀ a, (![0, 0] : Fin 2 → Nat) a + S1x2048.size a ≤ S1x2048.size a
  h_S1x2048 : 0 < S1x2048.numel
  broadcasts_S1x2048_S128x2048 : S1x2048.Broadcasts S128x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S128x2048_S128x2048 : S128x2048.ShapeCasts S128x2048
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S16384x2048.size a
  hwx0_0 : ∀ i : grid0.Coords, EltTy.bits .f32 = 32 ∨ (Rect.block (s := S16384x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S16384x2048.size a
  hwx0_1 : ∀ i : grid0.Coords, EltTy.bits .f32 = 32 ∨ (Rect.block (s := S16384x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S2048x2048.size a
  hwx0_6 : ∀ i : grid0.Coords, EltTy.bits .bf16 = 32 ∨ (Rect.block (s := S2048x2048) S2048x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x2048.size a ≤ S2048x2048.size a
  hwx0_7 : ∀ i : grid0.Coords, EltTy.bits .bf16 = 32 ∨ (Rect.block (s := S2048x2048) S2048x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S16384x2048.size a
  hwx0_8 : ∀ i : grid0.Coords, EltTy.bits .f32 = 32 ∨ (Rect.block (s := S16384x2048) S128x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S16384x2048.size a
  hwx0_9 : ∀ i : grid0.Coords, EltTy.bits .f32 = 32 ∨ (Rect.block (s := S16384x2048) S128x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x2048.size a ≤ S16384x2048.size a
  hwx0_10 : ∀ i : grid0.Coords, EltTy.bits .f32 = 32 ∨ (Rect.block (s := S16384x2048) S128x2048.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2048.size a ≤ S16384x2048.size a
  hwx1_0 : ∀ i : grid1.Coords, EltTy.bits .f32 = 32 ∨ (Rect.block (s := S16384x2048) S128x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S16384x2048.size a
  hwx1_1 : ∀ i : grid1.Coords, EltTy.bits .f32 = 32 ∨ (Rect.block (s := S16384x2048) S128x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x2048.size a ≤ S16384x2048.size a
  hwx1_2 : ∀ i : grid1.Coords, EltTy.bits .f32 = 32 ∨ (Rect.block (s := S16384x2048) S128x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x2048.size a ≤ S16384x2048.size a
  hwx1_3 : ∀ i : grid1.Coords, EltTy.bits .f32 = 32 ∨ (Rect.block (s := S16384x2048) S128x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x2048.size a ≤ S16384x2048.size a
  hwx1_4 : ∀ i : grid1.Coords, EltTy.bits .f32 = 32 ∨ (Rect.block (s := S16384x2048) S128x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x2048.size a ≤ S16384x2048.size a
  hwx1_5 : ∀ i : grid1.Coords, EltTy.bits .f32 = 32 ∨ (Rect.block (s := S16384x2048) S128x2048.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2048.size a ≤ S1x2048.size a
  hwx1_6 : ∀ i : grid1.Coords, EltTy.bits .f32 = 32 ∨ (Rect.block (s := S1x2048) S1x2048.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2048.size a ≤ S1x2048.size a
  hwx1_7 : ∀ i : grid1.Coords, EltTy.bits .f32 = 32 ∨ (Rect.block (s := S1x2048) S1x2048.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S2048x2048.size a ≤ S2048x2048.size a
  hwx1_8 : ∀ i : grid1.Coords, EltTy.bits .bf16 = 32 ∨ (Rect.block (s := S2048x2048) S2048x2048.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S128x2048.size a ≤ S16384x2048.size a
  hwx1_9 : ∀ i : grid1.Coords, EltTy.bits .f32 = 32 ∨ (Rect.block (s := S16384x2048) S128x2048.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S128x2048.size a ≤ S16384x2048.size a
  hwx1_10 : ∀ i : grid1.Coords, EltTy.bits .f32 = 32 ∨ (Rect.block (s := S16384x2048) S128x2048.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S128x2048.size a ≤ S16384x2048.size a
  hwx1_11 : ∀ i : grid1.Coords, EltTy.bits .f32 = 32 ∨ (Rect.block (s := S16384x2048) S128x2048.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S128x2048.size a ≤ S16384x2048.size a
  hwx1_12 : ∀ i : grid1.Coords, EltTy.bits .f32 = 32 ∨ (Rect.block (s := S16384x2048) S128x2048.size (cc1_transform_12 i) (hinb1_12 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S2048x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S2048x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_0) S128x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_1) S128x2048.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_2) S128x2048.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v4_2) S128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_1) S128x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S128x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S128x2048.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S1x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S1x2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v3) S2048x2048.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v5_0) S128x2048.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v5_1) S128x2048.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v5_2) S128x2048.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v5_3) S128x2048.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S1x2048 : Shape := ⟨2, ![1, 2048]⟩
abbrev S2048x2048 : Shape := ⟨2, ![2048, 2048]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S1x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S1x2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S16384x2048, .f32⟩
  | .hbm, ⟨61, _⟩ => ⟨S16384x2048, .f32⟩
  | .hbm, ⟨62, _⟩ => ⟨S16384x2048, .f32⟩
  | .hbm, ⟨63, _⟩ => ⟨S16384x2048, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S16384x2048, .f32⟩
  | .hbm, ⟨72, _⟩ => ⟨S16384x2048, .f32⟩
  | .hbm, ⟨73, _⟩ => ⟨S16384x2048, .f32⟩
  | .hbm, ⟨74, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]

class Facts₀ : Prop where
  bcast_S1x2048_S16384x2048_0_1 : S1x2048.BroadcastsInDim S16384x2048 (![0, 1] : Fin 2 → Fin S16384x2048.rank)
  bcast_S_S1x2048 : S_.BroadcastsInDim S1x2048 (![] : Fin 0 → Fin S1x2048.rank)
  bcast_S_S16384x2048 : S_.BroadcastsInDim S16384x2048 (![] : Fin 0 → Fin S16384x2048.rank)
  dot_S16384x2048_S2048x2048_S16384x2048_1_0_0_1_n_n_wf : DotDims.WF S16384x2048 S2048x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.Spec.lean ====
/-
  The mathematics both programs compute, entry by entry, on the extended reals.

  Inputs: x, aa, bb, pp of shape [16384, 2048]; five rows of shape [1, 2048] (three mixing rows, time_first,
  time_decay); four square weights of shape [2048, 2048].

  * the token-shift mix of one entry:  mix x a t = x·t + a·(1 − t);
  * a projection: entry (r, q) is  Σ_j mix(x[r,j], aa[r,j], t[0,j]) · W[j,q]   (k, v, and the gate before its logistic);
  * the gate r is the logistic of its projection, written as the quotient 1 / (1 + e^(−z));
  * with ww = tf + k and qq = max(pp, ww):  wkv = (e^(pp−qq)·aa + e^(ww−qq)·v) / (e^(pp−qq)·bb + e^(ww−qq));
  * with ww2 = pp + td and qq2 = max(ww2, k):  new_aa = e^(ww2−qq2)·aa + e^(k−qq2)·v,
    new_bb = e^(ww2−qq2)·bb + e^(k−qq2),  new_pp = qq2;
  * the output: entry (r, q) is  Σ_j (gate[r,j] · wkv[r,j]) · Wo[j,q].

  Nothing here mentions a program: the two sides are each shown to compute these functions.
-/
import Idealize.ShloMosaic.PureOps.Ideal
import Idealize.ShloMosaic.PureOps.Ideal.Laws
import Idealize.ShloMosaic.Lib.ValueIdx
import Idealize.ShloMosaic.Lib.IdealHost

noncomputable section

namespace Cert.Spec

open Idealize.ShloMosaic Idealize.ShloMosaic.ValueIdx

/-- The shapes of the statement. -/
abbrev Big : Shape := ⟨2, ![16384, 2048]⟩
abbrev Row : Shape := ⟨2, ![1, 2048]⟩
abbrev Sq : Shape := ⟨2, ![2048, 2048]⟩

/-- One entry of the token-shift mix: `x·t + a·(1 − t)`. -/
def mix (x a t : EReal) : EReal := x * t + a * (1 - t)

/-- The logistic as the quotient `1 / (1 + e^(−z))`. -/
def sig (z : EReal) : EReal := Ideal.div 1 (1 + Ideal.exp (-z))

/-- The stabilised weighted average of one entry: with `ww = tf + k` and `qq = max pp ww`,
    `(e^(pp−qq)·aa + e^(ww−qq)·v) / (e^(pp−qq)·bb + e^(ww−qq))`. -/
def wkv (pp k v aa bb tf : EReal) : EReal :=
  Ideal.div (Ideal.exp (pp - max pp (tf + k)) * aa + Ideal.exp (tf + k - max pp (tf + k)) * v)
    (Ideal.exp (pp - max pp (tf + k)) * bb + Ideal.exp (tf + k - max pp (tf + k)))

/-- The new exponent state of one entry: `max (pp + td) k`. -/
def newPp (pp k td : EReal) : EReal := max (pp + td) k

/-- The new numerator state of one entry. -/
def newAa (pp k v aa td : EReal) : EReal :=
  Ideal.exp (pp + td - max (pp + td) k) * aa + Ideal.exp (k - max (pp + td) k) * v

/-- The new denominator state of one entry. -/
def newBb (pp k bb td : EReal) : EReal :=
  Ideal.exp (pp + td - max (pp + td) k) * bb + Ideal.exp (k - max (pp + td) k)

/-- Entry `(r, q)` of a projection: row `r` of the mixed input against column `q` of the weight. -/
def projAt (x a : Big.Idx → EReal) (t : Row.Idx → EReal) (W : Sq.Idx → EReal) (r : Fin 16384) (q : Fin 2048) : EReal :=
  ∑ j : Fin 2048, mix (x (ix2 r j)) (a (ix2 r j)) (t (ix2 0 j)) * W (ix2 j q)

/-- A projection as an array. -/
def projArr (x a : Big.Idx → EReal) (t : Row.Idx → EReal) (W : Sq.Idx → EReal) : Big.Idx → EReal :=
  fun i => projAt x a t W ⟨(i 0).val, (i 0).isLt⟩ ⟨(i 1).val, (i 1).isLt⟩

/-- The gate: the logistic of its projection, entry by entry. -/
def gateArr (x a : Big.Idx → EReal) (t : Row.Idx → EReal) (W : Sq.Idx → EReal) : Big.Idx → EReal :=
  fun i => sig (projArr x a t W i)

/-- The three state arrays, entry by entry, from the exponent state `pp`, the key and value projections, the states
    `aa`, `bb` and the decay row. -/
def newAaArr (pp k v aa : Big.Idx → EReal) (td : Row.Idx → EReal) : Big.Idx → EReal :=
  fun i => newAa (pp i) (k i) (v i) (aa i) (td (ix2 0 ⟨(i 1).val, (i 1).isLt⟩))
def newBbArr (pp k bb : Big.Idx → EReal) (td : Row.Idx → EReal) : Big.Idx → EReal :=
  fun i => newBb (pp i) (k i) (bb i) (td (ix2 0 ⟨(i 1).val, (i 1).isLt⟩))
def newPpArr (pp k : Big.Idx → EReal) (td : Row.Idx → EReal) : Big.Idx → EReal :=
  fun i => newPp (pp i) (k i) (td (ix2 0 ⟨(i 1).val, (i 1).isLt⟩))

/-- Entry `(r, q)` of the output: row `r` of gate · wkv against column `q` of the output weight. -/
def outAt (g k v aa bb pp : Big.Idx → EReal) (tf : Row.Idx → EReal) (Wo : Sq.Idx → EReal) (r : Fin 16384) (q : Fin 2048) : EReal :=
  ∑ j : Fin 2048, (g (ix2 r j) * wkv (pp (ix2 r j)) (k (ix2 r j)) (v (ix2 r j)) (aa (ix2 r j)) (bb (ix2 r j)) (tf (ix2 0 j))) * Wo (ix2 j q)

/-- The output as an array. -/
def outArr (g k v aa bb pp : Big.Idx → EReal) (tf : Row.Idx → EReal) (Wo : Sq.Idx → EReal) : Big.Idx → EReal :=
  fun i => outAt g k v aa bb pp tf Wo ⟨(i 0).val, (i 0).isLt⟩ ⟨(i 1).val, (i 1).isLt⟩

end Cert.Spec

end
-- ==== Proof.BlockProduct.lean ====
/-
  The block product of the two kernels read at one entry.

  Every matrix product in the two kernel bodies multiplies a [128, 2048] block by a [2048, 2048] weight into a zero
  accumulator, contracting the block's columns with the weight's rows. On the extended reals that product's entry
  (p, q) is the plain sum  Σ_k block[p, k] · weight[k, q]  over the 2048 contracted positions.
-/
import proofs.«151216_j52621939310636_1_alg».proof.Proof.Gen.KernelIdeal
import Idealize.ShloMosaic.Lib.ValueIdx
import Idealize.ShloMosaic.PureOps.Ideal.Laws

noncomputable section

namespace Cert.KernelIdeal.BlockProduct

open Cert.KernelIdeal Idealize.ShloMosaic Idealize.ShloMosaic.ValueIdx

/-- The left operand's row is the output's row. -/
theorem lhs_row (i : S128x2048.Idx) (q : dot_S128x2048_S2048x2048_S128x2048_1_0_0_1_n_n.contr.Idx) :
    (dot_S128x2048_S2048x2048_S128x2048_1_0_0_1_n_n.lhsIdx i q 0).val = (i 0).val := by
  unfold DotDims.lhsIdx
  rw [dif_neg (show ¬(0 : Fin S128x2048.rank) ∈ dot_S128x2048_S2048x2048_S128x2048_1_0_0_1_n_n.lhsBatch by decide), dif_pos (show (0 : Fin S128x2048.rank) ∈ dot_S128x2048_S2048x2048_S128x2048_1_0_0_1_n_n.lhsNonContracting by decide)]
  rfl
/-- The left operand's column is the contracted position. -/
theorem lhs_col (i : S128x2048.Idx) (q : dot_S128x2048_S2048x2048_S128x2048_1_0_0_1_n_n.contr.Idx) :
    (dot_S128x2048_S2048x2048_S128x2048_1_0_0_1_n_n.lhsIdx i q 1).val = (q ⟨0, by decide⟩).val :=
  dot_S128x2048_S2048x2048_S128x2048_1_0_0_1_n_n.lhsIdx_val_of_single rfl i q
/-- The right operand's row is the contracted position. -/
theorem rhs_row (i : S128x2048.Idx) (q : dot_S128x2048_S2048x2048_S128x2048_1_0_0_1_n_n.contr.Idx) :
    (dot_S128x2048_S2048x2048_S128x2048_1_0_0_1_n_n.rhsIdx i q 0).val = (q ⟨0, by decide⟩).val :=
  dot_S128x2048_S2048x2048_S128x2048_1_0_0_1_n_n.rhsIdx_val_of_single rfl i q
/-- The right operand's column is the output's column. -/
theorem rhs_col (i : S128x2048.Idx) (q : dot_S128x2048_S2048x2048_S128x2048_1_0_0_1_n_n.contr.Idx) :
    (dot_S128x2048_S2048x2048_S128x2048_1_0_0_1_n_n.rhsIdx i q 1).val = (i 1).val := by
  unfold DotDims.rhsIdx
  rw [dif_neg (show ¬(1 : Fin S2048x2048.rank) ∈ dot_S128x2048_S2048x2048_S128x2048_1_0_0_1_n_n.rhsBatch by decide), dif_pos (show (1 : Fin S2048x2048.rank) ∈ dot_S128x2048_S2048x2048_S128x2048_1_0_0_1_n_n.rhsNonContracting by decide)]
  rfl

/-- Entry `(p, q)` of a block times a weight, into a zero accumulator, is `Σ_k block[p, k] · weight[k, q]`. -/
theorem matmul_zero_apply {φ₁ φ₂ : FTy} (l : FVec Ideal S128x2048 φ₁) (w : FVec Ideal S2048x2048 φ₂) (p : Fin 128) (q : Fin 2048) :
    matmul dot_S128x2048_S2048x2048_S128x2048_1_0_0_1_n_n none l w (constant S128x2048 .f32 0x00000000#32) (ix2 p q)
      = ∑ k : Fin 2048, l (ix2 p k) * w (ix2 k q) := by
  simp only [matmul]
  rw [Ideal.matmul_constant_zero_apply, ← Equiv.sum_comp (contrEquiv1 dot_S128x2048_S2048x2048_S128x2048_1_0_0_1_n_n 2048 rfl rfl).symm]
  refine Finset.sum_congr rfl fun k _ => ?_
  have hk := contrEquiv1_symm_val dot_S128x2048_S2048x2048_S128x2048_1_0_0_1_n_n 2048 rfl rfl k
  have el : dot_S128x2048_S2048x2048_S128x2048_1_0_0_1_n_n.lhsIdx (ix2 p q) ((contrEquiv1 dot_S128x2048_S2048x2048_S128x2048_1_0_0_1_n_n 2048 rfl rfl).symm k) = ix2 p k := funext fun a => Fin.ext (by
    match a with
    | ⟨0, _⟩ => exact lhs_row _ _
    | ⟨1, _⟩ => exact (lhs_col _ _).trans hk)
  have er : dot_S128x2048_S2048x2048_S128x2048_1_0_0_1_n_n.rhsIdx (ix2 p q) ((contrEquiv1 dot_S128x2048_S2048x2048_S128x2048_1_0_0_1_n_n 2048 rfl rfl).symm k) = ix2 k q := funext fun a => Fin.ext (by
    match a with
    | ⟨0, _⟩ => exact (rhs_row _ _).trans hk
    | ⟨1, _⟩ => exact rhs_col _ _)
  rw [el, er]

end Cert.KernelIdeal.BlockProduct

end
-- ==== Proof.Reg0Pay.lean ====
/-
  The arithmetic of the first kernel's body, read at one entry of a block.

  The body mixes a block of x with the matching block of the state aa through a mixing row t (one row, broadcast down
  the block's rows): entry (p, k) of the mixed block is  x[p,k]·t[0,k] + aa[p,k]·(1 − t[0,k]).  The key and the value
  are the mixed block times a square weight, so entry (p, q) is the sum over k of the mixed entry (p, k) times
  W[k, q]; the gate is the logistic of the same kind of product.  Narrowing to sixteen bits and the shape cast to the
  same shape change nothing on the extended reals.
-/
import proofs.«151216_j52621939310636_1_alg».proof.Proof.Gen.KernelIdeal.Skeleton
import proofs.«151216_j52621939310636_1_alg».proof.Proof.Spec
import proofs.«151216_j52621939310636_1_alg».proof.Proof.BlockProduct
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Reg0Pay

open Cert.KernelIdeal Cert.KernelIdeal.Gen Cert.Spec
open Idealize.ShloMosaic Idealize.ShloMosaic.ValueIdx

/-- Entry (p, k) of the mixed block: x·t + aa·(1 − t), the row t read at column k. -/
theorem mixed_apply (x0 x1 : Vec Ideal S128x2048 .f32) (x2 : Vec Ideal S1x2048 .f32) (p : Fin 128) (k : Fin 2048) :
    (truncf .bf16 (addf (mulf x0 (broadcastTo S128x2048 x2 broadcasts_S1x2048_S128x2048))
        (mulf x1 (broadcastTo S128x2048 (subf (broadcast S1x2048 (Scalar.ofBits (F := Ideal) .f32 0x3F800000#32)) x2) broadcasts_S1x2048_S128x2048)))
      bitsLt_bf16_f32 : FVec Ideal S128x2048 .bf16) (ix2 p k)
      = mix (x0 (ix2 p k)) (x1 (ix2 p k)) (x2 (ix2 0 k)) := by
  simp only [truncf_apply, addf_apply, mulf_apply]
  rw [broadcastTo_1b_ab_apply, broadcastTo_1b_ab_apply]
  simp only [subf_apply, broadcast_apply]
  have h1 : (FloatOps.ofBits (F := Ideal) FTy.f32 0x3F800000#32 : EReal) = 1 := Ideal.ofBits_one_f32
  rw [h1]
  rfl

/-- Entry (p, q) of the key's block: the mixed block against column q of the weight. -/
theorem key_apply (x0 x1 : Vec Ideal S128x2048 .f32) (x2 : Vec Ideal S1x2048 .f32) (w : Vec Ideal S2048x2048 .bf16)
    (p : Fin 128) (q : Fin 2048) :
    k0_pay2 x0 x1 x2 w (ix2 p q)
      = ∑ k : Fin 2048, mix (x0 (ix2 p k)) (x1 (ix2 p k)) (x2 (ix2 0 k)) * w (ix2 k q) := by
  unfold k0_pay2
  refine (BlockProduct.matmul_zero_apply _ _ p q).trans ?_
  refine Finset.sum_congr rfl fun k _ => ?_
  rw [mixed_apply, shapeCast_self]

/-- Entry (p, q) of the value's block: the same product with the value's mixing row and weight. -/
theorem value_apply (x0 x1 : Vec Ideal S128x2048 .f32) (x3 : Vec Ideal S1x2048 .f32) (w : Vec Ideal S2048x2048 .bf16)
    (p : Fin 128) (q : Fin 2048) :
    k0_pay3 x0 x1 x3 w (ix2 p q)
      = ∑ k : Fin 2048, mix (x0 (ix2 p k)) (x1 (ix2 p k)) (x3 (ix2 0 k)) * w (ix2 k q) := by
  unfold k0_pay3
  refine (BlockProduct.matmul_zero_apply _ _ p q).trans ?_
  refine Finset.sum_congr rfl fun k _ => ?_
  rw [mixed_apply, shapeCast_self]

/-- Entry (p, q) of the gate's block: the logistic, as the quotient 1 / (1 + e^(−z)), of the same kind of product. -/
theorem gate_apply (x0 x1 : Vec Ideal S128x2048 .f32) (x4 : Vec Ideal S1x2048 .f32) (w : Vec Ideal S2048x2048 .bf16)
    (p : Fin 128) (q : Fin 2048) :
    k0_pay1 (k0_pay4 x0 x1 x4) (k0_pay5 w) (constant (F := Ideal) S128x2048 .f32 0x00000000#32) (ix2 p q)
      = Cert.Spec.sig (∑ k : Fin 2048, mix (x0 (ix2 p k)) (x1 (ix2 p k)) (x4 (ix2 0 k)) * w (ix2 k q)) := by
  unfold k0_pay1 k0_pay4 k0_pay5
  show Ideal.logistic _ = _
  unfold Ideal.logistic Cert.Spec.sig
  refine congrArg (fun z => Ideal.div 1 (1 + Ideal.exp (-z))) ?_
  refine (BlockProduct.matmul_zero_apply _ _ p q).trans ?_
  refine Finset.sum_congr rfl fun k _ => ?_
  rw [mixed_apply, shapeCast_self]

end Cert.KernelIdeal.Reg0Pay

end
-- ==== Proof.Reg0.lean ====
/-
  The first kernel region ends with its three result arrays at the three projections of the specification.

  The region walks the 16384 rows of x and of the state aa in 128 blocks of 128 rows. At block t it reads rows
  128·t … 128·t + 127 of x and aa, the three mixing rows and the three square weights whole, and writes rows
  128·t … 128·t + 127 of the key, the value and the gate. Entry (p, q) of what it writes is the sum over k of the
  mixed entry (p, k) times W[k, q] (for the gate, the logistic of that sum), and the mixed entry (p, k) of the block is
  the mix of row 128·t + p of the arrays: so the block written at t is block t of the projection of the whole arrays.
  The 128 blocks tile the rows, every block is written back, and so each result array ends at its projection.
-/
import proofs.«151216_j52621939310636_1_alg».proof.Proof.Gen.KernelIdeal.Frame
import proofs.«151216_j52621939310636_1_alg».proof.Proof.Spec
import proofs.«151216_j52621939310636_1_alg».proof.Proof.Reg0Pay
import Idealize.ShloMosaic.Lib.Pipeline.Value
import Idealize.ShloMosaic.Lib.ValueIdx
import Idealize.ShloMosaic.PureOps.Ideal.Laws

noncomputable section

namespace Cert.KernelIdeal.Reg0

open Cert.KernelIdeal Cert.KernelIdeal.Gen Cert.Spec
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of the body's whole-buffer loads and stores, as a constant function. -/
theorem zero_offsets : (![0, 0] : Fin 2 → Nat) = fun _ => 0 := funext fun a => by fin_cases a <;> rfl

/-- Where each window's block sits at point t: the row-blocked windows (x, aa, and the three results) at block row t,
    column block 0; the rows and the weights at block (0, 0). Decided once over the 128 points. -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- Row p of x's block at point t is row 128·t + p of x. -/
theorem x_block (c : Dev nD) (t : Fin cfg0.N) (p : Fin 128) (k : Fin 2048) (r : Fin 16384) (hr : r.val = t.val * 128 + p.val) :
    (iblk0 V c 0 t : Vec Ideal S128x2048 .f32) (ix2 p k) = (V c main_arg0 : S16384x2048.Idx → EReal) (ix2 r k) := by
  obtain ⟨⟨e0, e1⟩, -⟩ := block_indices t
  unfold iblk0
  rw [View.read_apply]
  show V c main_arg0 _ = V c main_arg0 _
  congr 1
  funext a
  apply Fin.ext
  match a with
  | ⟨0, _⟩ => show win0_0.index t 0 * 128 + 1 * p.val = r.val; rw [e0, hr]; omega
  | ⟨1, _⟩ => show win0_0.index t 1 * 2048 + 1 * k.val = k.val; rw [e1]; omega

/-- Row p of aa's block at point t is row 128·t + p of aa. -/
theorem aa_block (c : Dev nD) (t : Fin cfg0.N) (p : Fin 128) (k : Fin 2048) (r : Fin 16384) (hr : r.val = t.val * 128 + p.val) :
    (iblk0 V c 1 t : Vec Ideal S128x2048 .f32) (ix2 p k) = (V c main_arg1 : S16384x2048.Idx → EReal) (ix2 r k) := by
  obtain ⟨-, ⟨e0, e1⟩, -⟩ := block_indices t
  unfold iblk0
  rw [View.read_apply]
  show V c main_arg1 _ = V c main_arg1 _
  congr 1
  funext a
  apply Fin.ext
  match a with
  | ⟨0, _⟩ => show win0_1.index t 0 * 128 + 1 * p.val = r.val; rw [e0, hr]; omega
  | ⟨1, _⟩ => show win0_1.index t 1 * 2048 + 1 * k.val = k.val; rw [e1]; omega

/-- The key's mixing row is read whole at every point. -/
theorem keyrow_block (c : Dev nD) (t : Fin cfg0.N) (z : Fin 1) (k : Fin 2048) :
    (iblk0 V c 2 t : Vec Ideal S1x2048 .f32) (ix2 z k) = (V c main_arg4 : S1x2048.Idx → EReal) (ix2 z k) := by
  obtain ⟨-, -, ⟨e0, e1⟩, -⟩ := block_indices t
  unfold iblk0
  rw [View.read_apply]
  show V c main_arg4 _ = V c main_arg4 _
  congr 1
  funext a
  apply Fin.ext
  match a with
  | ⟨0, _⟩ => show win0_2.index t 0 * 1 + 1 * z.val = z.val; rw [e0]; omega
  | ⟨1, _⟩ => show win0_2.index t 1 * 2048 + 1 * k.val = k.val; rw [e1]; omega

/-- The key's weight is read whole at every point. -/
theorem keyweight_block (c : Dev nD) (t : Fin cfg0.N) (k q : Fin 2048) :
    (iblk0 V c 5 t : Vec Ideal S2048x2048 .bf16) (ix2 k q) = (V c main_v0 : S2048x2048.Idx → EReal) (ix2 k q) := by
  obtain ⟨-, -, -, -, -, ⟨e0, e1⟩, -⟩ := block_indices t
  unfold iblk0
  rw [View.read_apply]
  show V c main_v0 _ = V c main_v0 _
  congr 1
  funext a
  apply Fin.ext
  match a with
  | ⟨0, _⟩ => show win0_5.index t 0 * 2048 + 1 * k.val = k.val; rw [e0]; omega
  | ⟨1, _⟩ => show win0_5.index t 1 * 2048 + 1 * q.val = q.val; rw [e1]; omega

/-- What point t writes back of the key: block t of the key projection of the whole arrays. -/
theorem k_written (c : Dev nD) (t : Fin cfg0.N) :
    (dat0 V c).flushed 8 t = ((cfg0.win 8).blk t).view.read (Elt Ideal)
      (projArr (V c main_arg0) (V c main_arg1) (V c main_arg4) (V c main_v0)) := by
  show (cfg0.win 8).cut (grid0.coords t) ((dat0 V c).after 8 t) = _
  rw [after0_8]
  unfold out0_8
  rw [View.canon_unit_zero zero_offsets]
  simp only [View.ld_unit_zero (S := S128x2048) zero_offsets, View.ld_unit_zero (S := S1x2048) zero_offsets,
    View.ld_unit_zero (S := S2048x2048) zero_offsets]
  obtain ⟨-, -, -, -, -, -, -, -, ⟨e0, e1⟩, -⟩ := block_indices t
  have ht : t.val < 128 := lt_of_lt_of_eq t.isLt N_0
  funext j
  obtain ⟨p, q, rfl⟩ : ∃ (p : Fin 128) (q : Fin 2048), j = ix2 p q := ⟨j 0, j 1, eq_ix2 j⟩
  obtain ⟨r, hr⟩ : ∃ r : Fin 16384, r.val = t.val * 128 + p.val :=
    ⟨⟨t.val * 128 + p.val, by have := p.isLt; omega⟩, rfl⟩
  have hemb : ((cfg0.win 8).blk t).view.emb (ix2 p q) = (ix2 r q : S16384x2048.Idx) := by
    funext a
    apply Fin.ext
    match a with
    | ⟨0, _⟩ => show win0_8.index t 0 * 128 + 1 * p.val = r.val; rw [e0, hr]; omega
    | ⟨1, _⟩ => show win0_8.index t 1 * 2048 + 1 * q.val = q.val; rw [e1]; omega
  show k0_pay2 (iblk0 V c 0 t) (iblk0 V c 1 t) (iblk0 V c 2 t) (iblk0 V c 5 t) (ix2 p q)
    = projArr (V c main_arg0) (V c main_arg1) (V c main_arg4) (V c main_v0) (((cfg0.win 8).blk t).view.emb (ix2 p q))
  rw [hemb]
  refine (Reg0Pay.key_apply _ _ _ _ p q).trans ?_
  show _ = projAt _ _ _ _ r q
  unfold projAt
  refine Finset.sum_congr rfl fun k _ => ?_
  rw [x_block V c t p k r hr, aa_block V c t p k r hr, keyrow_block V c t 0 k, keyweight_block V c t k q]

/-- An index of the key array lies in point t's block iff each coordinate lies in the block's range on its axis. -/
theorem mem_k_block (t : Fin cfg0.N) (i : S16384x2048.Idx) :
    i ∈ ((cfg0.win 8).blk t).view.set ↔ ∀ a : Fin 2, win0_8.index t a * S128x2048.size a ≤ (i a).val
      ∧ (i a).val < win0_8.index t a * S128x2048.size a + S128x2048.size a := by
  show i ∈ ((View.whole main_v4_0).slice (win0_8.rect t)).set ↔ _
  rw [View.set_slice_whole, Rect.mem_set_unit]
  exact Iff.rfl

/-- Every index of the key array lies in the block of the point its row falls in, and that point writes back. -/
theorem k_cover (i : S16384x2048.Idx) :
    ∃ t : Fin cfg0.N, (cfg0.win 8).flush t = true ∧ i ∈ ((cfg0.win 8).blk t).view.set := by
  have hi0 : (i 0).val < 16384 := (i 0).isLt
  have hi1 : (i 1).val < 2048 := (i 1).isLt
  obtain ⟨t, ht⟩ : ∃ t : Fin cfg0.N, t.val = (i 0).val / 128 :=
    ⟨⟨(i 0).val / 128, lt_of_lt_of_eq (by omega : (i 0).val / 128 < 128) N_0.symm⟩, rfl⟩
  obtain ⟨-, -, -, -, -, -, -, -, ⟨e0, e1⟩, -⟩ := block_indices t
  refine ⟨t, flush0_8 t, ?_⟩
  rw [mem_k_block]
  intro a
  match a with
  | ⟨0, _⟩ =>
    show win0_8.index t 0 * 128 ≤ (i 0).val ∧ (i 0).val < win0_8.index t 0 * 128 + 128
    rw [e0, ht]; omega
  | ⟨1, _⟩ =>
    show win0_8.index t 1 * 2048 ≤ (i 1).val ∧ (i 1).val < win0_8.index t 1 * 2048 + 2048
    rw [e1]; omega

theorem k_final (c : Dev nD) :
    (dat0 V c).arrAt 8 cfg0.N = projArr (V c main_arg0) (V c main_arg1) (V c main_arg4) (V c main_v0) :=
  (dat0 V c).arrAt_eq_of_cover 8 _ (fun t _ => k_written V c t) k_cover

/-- The value's mixing row is read whole at every point. -/
theorem valuerow_block (c : Dev nD) (t : Fin cfg0.N) (z : Fin 1) (k : Fin 2048) :
    (iblk0 V c 3 t : Vec Ideal S1x2048 .f32) (ix2 z k) = (V c main_arg5 : S1x2048.Idx → EReal) (ix2 z k) := by
  obtain ⟨-, -, -, ⟨e0, e1⟩, -⟩ := block_indices t
  unfold iblk0
  rw [View.read_apply]
  show V c main_arg5 _ = V c main_arg5 _
  congr 1
  funext a
  apply Fin.ext
  match a with
  | ⟨0, _⟩ => show win0_3.index t 0 * 1 + 1 * z.val = z.val; rw [e0]; omega
  | ⟨1, _⟩ => show win0_3.index t 1 * 2048 + 1 * k.val = k.val; rw [e1]; omega

/-- The value's weight is read whole at every point. -/
theorem valueweight_block (c : Dev nD) (t : Fin cfg0.N) (k q : Fin 2048) :
    (iblk0 V c 6 t : Vec Ideal S2048x2048 .bf16) (ix2 k q) = (V c main_v1 : S2048x2048.Idx → EReal) (ix2 k q) := by
  obtain ⟨-, -, -, -, -, -, ⟨e0, e1⟩, -⟩ := block_indices t
  unfold iblk0
  rw [View.read_apply]
  show V c main_v1 _ = V c main_v1 _
  congr 1
  funext a
  apply Fin.ext
  match a with
  | ⟨0, _⟩ => show win0_6.index t 0 * 2048 + 1 * k.val = k.val; rw [e0]; omega
  | ⟨1, _⟩ => show win0_6.index t 1 * 2048 + 1 * q.val = q.val; rw [e1]; omega

/-- What point t writes back of the value: block t of the value projection of the whole arrays. -/
theorem v_written (c : Dev nD) (t : Fin cfg0.N) :
    (dat0 V c).flushed 9 t = ((cfg0.win 9).blk t).view.read (Elt Ideal)
      (projArr (V c main_arg0) (V c main_arg1) (V c main_arg5) (V c main_v1)) := by
  show (cfg0.win 9).cut (grid0.coords t) ((dat0 V c).after 9 t) = _
  rw [after0_9]
  unfold out0_9
  rw [View.canon_unit_zero zero_offsets]
  simp only [View.ld_unit_zero (S := S128x2048) zero_offsets, View.ld_unit_zero (S := S1x2048) zero_offsets,
    View.ld_unit_zero (S := S2048x2048) zero_offsets]
  obtain ⟨-, -, -, -, -, -, -, -, -, ⟨e0, e1⟩, -⟩ := block_indices t
  have ht : t.val < 128 := lt_of_lt_of_eq t.isLt N_0
  funext j
  obtain ⟨p, q, rfl⟩ : ∃ (p : Fin 128) (q : Fin 2048), j = ix2 p q := ⟨j 0, j 1, eq_ix2 j⟩
  obtain ⟨r, hr⟩ : ∃ r : Fin 16384, r.val = t.val * 128 + p.val :=
    ⟨⟨t.val * 128 + p.val, by have := p.isLt; omega⟩, rfl⟩
  have hemb : ((cfg0.win 9).blk t).view.emb (ix2 p q) = (ix2 r q : S16384x2048.Idx) := by
    funext a
    apply Fin.ext
    match a with
    | ⟨0, _⟩ => show win0_9.index t 0 * 128 + 1 * p.val = r.val; rw [e0, hr]; omega
    | ⟨1, _⟩ => show win0_9.index t 1 * 2048 + 1 * q.val = q.val; rw [e1]; omega
  show k0_pay3 (iblk0 V c 0 t) (iblk0 V c 1 t) (iblk0 V c 3 t) (iblk0 V c 6 t) (ix2 p q)
    = projArr (V c main_arg0) (V c main_arg1) (V c main_arg5) (V c main_v1) (((cfg0.win 9).blk t).view.emb (ix2 p q))
  rw [hemb]
  refine (Reg0Pay.value_apply _ _ _ _ p q).trans ?_
  show _ = projAt _ _ _ _ r q
  unfold projAt
  refine Finset.sum_congr rfl fun k _ => ?_
  rw [x_block V c t p k r hr, aa_block V c t p k r hr, valuerow_block V c t 0 k, valueweight_block V c t k q]

/-- An index of the value array lies in point t's block iff each coordinate lies in the block's range on its axis. -/
theorem mem_v_block (t : Fin cfg0.N) (i : S16384x2048.Idx) :
    i ∈ ((cfg0.win 9).blk t).view.set ↔ ∀ a : Fin 2, win0_9.index t a * S128x2048.size a ≤ (i a).val
      ∧ (i a).val < win0_9.index t a * S128x2048.size a + S128x2048.size a := by
  show i ∈ ((View.whole main_v4_1).slice (win0_9.rect t)).set ↔ _
  rw [View.set_slice_whole, Rect.mem_set_unit]
  exact Iff.rfl

/-- Every index of the value array lies in the block of the point its row falls in, and that point writes back. -/
theorem v_cover (i : S16384x2048.Idx) :
    ∃ t : Fin cfg0.N, (cfg0.win 9).flush t = true ∧ i ∈ ((cfg0.win 9).blk t).view.set := by
  have hi0 : (i 0).val < 16384 := (i 0).isLt
  have hi1 : (i 1).val < 2048 := (i 1).isLt
  obtain ⟨t, ht⟩ : ∃ t : Fin cfg0.N, t.val = (i 0).val / 128 :=
    ⟨⟨(i 0).val / 128, lt_of_lt_of_eq (by omega : (i 0).val / 128 < 128) N_0.symm⟩, rfl⟩
  obtain ⟨-, -, -, -, -, -, -, -, -, ⟨e0, e1⟩, -⟩ := block_indices t
  refine ⟨t, flush0_9 t, ?_⟩
  rw [mem_v_block]
  intro a
  match a with
  | ⟨0, _⟩ =>
    show win0_9.index t 0 * 128 ≤ (i 0).val ∧ (i 0).val < win0_9.index t 0 * 128 + 128
    rw [e0, ht]; omega
  | ⟨1, _⟩ =>
    show win0_9.index t 1 * 2048 ≤ (i 1).val ∧ (i 1).val < win0_9.index t 1 * 2048 + 2048
    rw [e1]; omega

theorem v_final (c : Dev nD) :
    (dat0 V c).arrAt 9 cfg0.N = projArr (V c main_arg0) (V c main_arg1) (V c main_arg5) (V c main_v1) :=
  (dat0 V c).arrAt_eq_of_cover 9 _ (fun t _ => v_written V c t) v_cover

/-- The gate's mixing row is read whole at every point. -/
theorem gaterow_block (c : Dev nD) (t : Fin cfg0.N) (z : Fin 1) (k : Fin 2048) :
    (iblk0 V c 4 t : Vec Ideal S1x2048 .f32) (ix2 z k) = (V c main_arg6 : S1x2048.Idx → EReal) (ix2 z k) := by
  obtain ⟨-, -, -, -, ⟨e0, e1⟩, -⟩ := block_indices t
  unfold iblk0
  rw [View.read_apply]
  show V c main_arg6 _ = V c main_arg6 _
  congr 1
  funext a
  apply Fin.ext
  match a with
  | ⟨0, _⟩ => show win0_4.index t 0 * 1 + 1 * z.val = z.val; rw [e0]; omega
  | ⟨1, _⟩ => show win0_4.index t 1 * 2048 + 1 * k.val = k.val; rw [e1]; omega

/-- The gate's weight is read whole at every point. -/
theorem gateweight_block (c : Dev nD) (t : Fin cfg0.N) (k q : Fin 2048) :
    (iblk0 V c 7 t : Vec Ideal S2048x2048 .bf16) (ix2 k q) = (V c main_v2 : S2048x2048.Idx → EReal) (ix2 k q) := by
  obtain ⟨-, -, -, -, -, -, -, ⟨e0, e1⟩, -⟩ := block_indices t
  unfold iblk0
  rw [View.read_apply]
  show V c main_v2 _ = V c main_v2 _
  congr 1
  funext a
  apply Fin.ext
  match a with
  | ⟨0, _⟩ => show win0_7.index t 0 * 2048 + 1 * k.val = k.val; rw [e0]; omega
  | ⟨1, _⟩ => show win0_7.index t 1 * 2048 + 1 * q.val = q.val; rw [e1]; omega

/-- What point t writes back of the gate: block t of the logistic of the gate projection of the whole arrays. -/
theorem gate_written (c : Dev nD) (t : Fin cfg0.N) :
    (dat0 V c).flushed 10 t = ((cfg0.win 10).blk t).view.read (Elt Ideal)
      (gateArr (V c main_arg0) (V c main_arg1) (V c main_arg6) (V c main_v2)) := by
  show (cfg0.win 10).cut (grid0.coords t) ((dat0 V c).after 10 t) = _
  rw [after0_10]
  unfold out0_10
  rw [View.canon_unit_zero zero_offsets]
  simp only [View.ld_unit_zero (S := S128x2048) zero_offsets, View.ld_unit_zero (S := S1x2048) zero_offsets,
    View.ld_unit_zero (S := S2048x2048) zero_offsets]
  obtain ⟨-, -, -, -, -, -, -, -, -, -, ⟨e0, e1⟩⟩ := block_indices t
  have ht : t.val < 128 := lt_of_lt_of_eq t.isLt N_0
  funext j
  obtain ⟨p, q, rfl⟩ : ∃ (p : Fin 128) (q : Fin 2048), j = ix2 p q := ⟨j 0, j 1, eq_ix2 j⟩
  obtain ⟨r, hr⟩ : ∃ r : Fin 16384, r.val = t.val * 128 + p.val :=
    ⟨⟨t.val * 128 + p.val, by have := p.isLt; omega⟩, rfl⟩
  have hemb : ((cfg0.win 10).blk t).view.emb (ix2 p q) = (ix2 r q : S16384x2048.Idx) := by
    funext a
    apply Fin.ext
    match a with
    | ⟨0, _⟩ => show win0_10.index t 0 * 128 + 1 * p.val = r.val; rw [e0, hr]; omega
    | ⟨1, _⟩ => show win0_10.index t 1 * 2048 + 1 * q.val = q.val; rw [e1]; omega
  show k0_pay1 (k0_pay4 (iblk0 V c 0 t) (iblk0 V c 1 t) (iblk0 V c 4 t)) (k0_pay5 (iblk0 V c 7 t))
      (constant (F := Ideal) S128x2048 .f32 0x00000000#32) (ix2 p q)
    = gateArr (V c main_arg0) (V c main_arg1) (V c main_arg6) (V c main_v2) (((cfg0.win 10).blk t).view.emb (ix2 p q))
  rw [hemb]
  refine (Reg0Pay.gate_apply _ _ _ _ p q).trans ?_
  show _ = Cert.Spec.sig (projAt _ _ _ _ r q)
  unfold projAt
  refine congrArg Cert.Spec.sig (Finset.sum_congr rfl fun k _ => ?_)
  rw [x_block V c t p k r hr, aa_block V c t p k r hr, gaterow_block V c t 0 k, gateweight_block V c t k q]

/-- An index of the gate array lies in point t's block iff each coordinate lies in the block's range on its axis. -/
theorem mem_gate_block (t : Fin cfg0.N) (i : S16384x2048.Idx) :
    i ∈ ((cfg0.win 10).blk t).view.set ↔ ∀ a : Fin 2, win0_10.index t a * S128x2048.size a ≤ (i a).val
      ∧ (i a).val < win0_10.index t a * S128x2048.size a + S128x2048.size a := by
  show i ∈ ((View.whole main_v4_2).slice (win0_10.rect t)).set ↔ _
  rw [View.set_slice_whole, Rect.mem_set_unit]
  exact Iff.rfl

/-- Every index of the gate array lies in the block of the point its row falls in, and that point writes back. -/
theorem gate_cover (i : S16384x2048.Idx) :
    ∃ t : Fin cfg0.N, (cfg0.win 10).flush t = true ∧ i ∈ ((cfg0.win 10).blk t).view.set := by
  have hi0 : (i 0).val < 16384 := (i 0).isLt
  have hi1 : (i 1).val < 2048 := (i 1).isLt
  obtain ⟨t, ht⟩ : ∃ t : Fin cfg0.N, t.val = (i 0).val / 128 :=
    ⟨⟨(i 0).val / 128, lt_of_lt_of_eq (by omega : (i 0).val / 128 < 128) N_0.symm⟩, rfl⟩
  obtain ⟨-, -, -, -, -, -, -, -, -, -, ⟨e0, e1⟩⟩ := block_indices t
  refine ⟨t, flush0_10 t, ?_⟩
  rw [mem_gate_block]
  intro a
  match a with
  | ⟨0, _⟩ =>
    show win0_10.index t 0 * 128 ≤ (i 0).val ∧ (i 0).val < win0_10.index t 0 * 128 + 128
    rw [e0, ht]; omega
  | ⟨1, _⟩ =>
    show win0_10.index t 1 * 2048 ≤ (i 1).val ∧ (i 1).val < win0_10.index t 1 * 2048 + 2048
    rw [e1]; omega

theorem gate_final (c : Dev nD) :
    (dat0 V c).arrAt 10 cfg0.N = gateArr (V c main_arg0) (V c main_arg1) (V c main_arg6) (V c main_v2) :=
  (dat0 V c).arrAt_eq_of_cover 10 _ (fun t _ => gate_written V c t) gate_cover

end Cert.KernelIdeal.Reg0

end
-- ==== Proof.Reg1Pay.lean ====
/-
  The arithmetic of the combine-and-output body, entry by entry.

  The body reads the gate r, the key k, the value v, the states aa, bb, pp (blocks of 128 rows by 2048 lanes), the two
  rows time_first and time_decay (one row of 2048 lanes, repeated down the 128 rows) and the square output weight.
  Three of its four results are pointwise: the new exponent state  max (pp + td) k,  and the new numerator and
  denominator states built from the two exponentials  e^(pp + td − that max)  and  e^(k − that max).  The fourth is a
  product: row p of  gate · wkv  against column q of the weight, a sum over the 2048 lanes.

  Each lemma below reads one of these results at an entry (p, q) of the block and finds there the scalar function of
  the specification applied to the operands' entries.
-/
import proofs.«151216_j52621939310636_1_alg».proof.Proof.Gen.KernelIdeal.Skeleton
import proofs.«151216_j52621939310636_1_alg».proof.Proof.Spec
import proofs.«151216_j52621939310636_1_alg».proof.Proof.BlockProduct
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg1Pay

open Cert.KernelIdeal Cert.KernelIdeal.Gen Cert.Spec
open Idealize.ShloMosaic Idealize.ShloMosaic.ValueIdx

/-- The decay row repeated down the block, added to the exponent state: entry (p, q) is  pp + td[q]. -/
theorem decayed_apply (pp : Vec Ideal S128x2048 .f32) (td : Vec Ideal S1x2048 .f32) (p : Fin 128) (q : Fin 2048) :
    k1_pay4 pp td (ix2 p q) = pp (ix2 p q) + td (ix2 0 q) := by
  unfold k1_pay4
  show pp (ix2 p q) + broadcastTo S128x2048 td broadcasts_S1x2048_S128x2048 (ix2 p q) = _
  rw [broadcastTo_1b_ab_apply]

/-- The new exponent state at an entry:  max (pp + td) k. -/
theorem newPp_apply (k pp : Vec Ideal S128x2048 .f32) (td : Vec Ideal S1x2048 .f32) (p : Fin 128) (q : Fin 2048) :
    k1_pay5 k pp td (ix2 p q) = newPp (pp (ix2 p q)) (k (ix2 p q)) (td (ix2 0 q)) := by
  unfold k1_pay5 k1_pay2 newPp
  rw [shapeCast_self]
  show max (k1_pay4 pp td (ix2 p q)) (k (ix2 p q)) = _
  rw [decayed_apply]

/-- The weight of the old state at an entry:  e^(pp + td − max (pp + td) k). -/
theorem oldWeight_apply (k pp : Vec Ideal S128x2048 .f32) (td : Vec Ideal S1x2048 .f32) (p : Fin 128) (q : Fin 2048) :
    k1_pay6 k pp td (ix2 p q)
      = Ideal.exp (pp (ix2 p q) + td (ix2 0 q) - max (pp (ix2 p q) + td (ix2 0 q)) (k (ix2 p q))) := by
  unfold k1_pay6
  show Ideal.exp (k1_pay4 pp td (ix2 p q) - k1_pay5 k pp td (ix2 p q)) = _
  rw [decayed_apply, newPp_apply]
  rfl

/-- The weight of the new key at an entry:  e^(k − max (pp + td) k). -/
theorem newWeight_apply (k pp : Vec Ideal S128x2048 .f32) (td : Vec Ideal S1x2048 .f32) (p : Fin 128) (q : Fin 2048) :
    k1_pay7 k pp td (ix2 p q)
      = Ideal.exp (k (ix2 p q) - max (pp (ix2 p q) + td (ix2 0 q)) (k (ix2 p q))) := by
  unfold k1_pay7 k1_pay2
  rw [shapeCast_self]
  show Ideal.exp (k (ix2 p q) - k1_pay5 k pp td (ix2 p q)) = _
  rw [newPp_apply]
  rfl

/-- The new numerator state at an entry. -/
theorem newAa_apply (k v aa pp : Vec Ideal S128x2048 .f32) (td : Vec Ideal S1x2048 .f32) (p : Fin 128) (q : Fin 2048) :
    k1_pay8 k v aa pp td (ix2 p q)
      = newAa (pp (ix2 p q)) (k (ix2 p q)) (v (ix2 p q)) (aa (ix2 p q)) (td (ix2 0 q)) := by
  unfold k1_pay8 k1_pay3 newAa
  rw [shapeCast_self]
  show k1_pay6 k pp td (ix2 p q) * aa (ix2 p q) + k1_pay7 k pp td (ix2 p q) * v (ix2 p q) = _
  rw [oldWeight_apply, newWeight_apply]

/-- The new denominator state at an entry. -/
theorem newBb_apply (k bb pp : Vec Ideal S128x2048 .f32) (td : Vec Ideal S1x2048 .f32) (p : Fin 128) (q : Fin 2048) :
    k1_pay9 k bb pp td (ix2 p q)
      = newBb (pp (ix2 p q)) (k (ix2 p q)) (bb (ix2 p q)) (td (ix2 0 q)) := by
  unfold k1_pay9 newBb
  show k1_pay6 k pp td (ix2 p q) * bb (ix2 p q) + k1_pay7 k pp td (ix2 p q) = _
  rw [oldWeight_apply, newWeight_apply]

/-- The left factor of the output product at an entry:  gate · wkv. -/
theorem gated_apply (g k v aa bb pp : Vec Ideal S128x2048 .f32) (tf : Vec Ideal S1x2048 .f32) (p : Fin 128) (q : Fin 2048) :
    k1_pay10 g k v aa bb pp tf (ix2 p q)
      = g (ix2 p q) * wkv (pp (ix2 p q)) (k (ix2 p q)) (v (ix2 p q)) (aa (ix2 p q)) (bb (ix2 p q)) (tf (ix2 0 q)) := by
  unfold k1_pay10 k1_pay2 k1_pay3 wkv
  simp only [shapeCast_self]
  have hb : broadcastTo S128x2048 tf broadcasts_S1x2048_S128x2048 (ix2 p q) = tf (ix2 0 q) :=
    broadcastTo_1b_ab_apply tf _ p q
  show g (ix2 p q) * Ideal.div
      (Ideal.exp (pp (ix2 p q) - max (pp (ix2 p q)) (broadcastTo S128x2048 tf broadcasts_S1x2048_S128x2048 (ix2 p q) + k (ix2 p q))) * aa (ix2 p q)
        + Ideal.exp (broadcastTo S128x2048 tf broadcasts_S1x2048_S128x2048 (ix2 p q) + k (ix2 p q) - max (pp (ix2 p q)) (broadcastTo S128x2048 tf broadcasts_S1x2048_S128x2048 (ix2 p q) + k (ix2 p q))) * v (ix2 p q))
      (Ideal.exp (pp (ix2 p q) - max (pp (ix2 p q)) (broadcastTo S128x2048 tf broadcasts_S1x2048_S128x2048 (ix2 p q) + k (ix2 p q))) * bb (ix2 p q)
        + Ideal.exp (broadcastTo S128x2048 tf broadcasts_S1x2048_S128x2048 (ix2 p q) + k (ix2 p q) - max (pp (ix2 p q)) (broadcastTo S128x2048 tf broadcasts_S1x2048_S128x2048 (ix2 p q) + k (ix2 p q)))) = _
  rw [hb]

/-- The output block at an entry: row p of gate · wkv against column q of the weight. -/
theorem out_apply (g k v aa bb pp : Vec Ideal S128x2048 .f32) (tf : Vec Ideal S1x2048 .f32) (w : Vec Ideal S2048x2048 .bf16)
    (p : Fin 128) (q : Fin 2048) :
    k1_pay1 (k1_pay10 g k v aa bb pp tf) (k1_pay11 w) (constant (F := Ideal) S128x2048 .f32 0x00000000#32) (ix2 p q)
      = ∑ j : Fin 2048, (g (ix2 p j) * wkv (pp (ix2 p j)) (k (ix2 p j)) (v (ix2 p j)) (aa (ix2 p j)) (bb (ix2 p j)) (tf (ix2 0 j))) * w (ix2 j q) := by
  unfold k1_pay1 k1_pay11
  rw [shapeCast_self]
  refine (BlockProduct.matmul_zero_apply _ _ p q).trans ?_
  refine Finset.sum_congr rfl fun j _ => ?_
  rw [gated_apply]

end Cert.KernelIdeal.Reg1Pay

end
-- ==== Proof.Reg1.lean ====
/-
  The second kernel region: from the gate r, the key k, the value v, the states aa, bb, pp, the rows time_first and
  time_decay and the output weight it writes the three new states and the output.

  The 16384 rows are cut into 128 blocks of 128 rows; grid point t works on block t: rows 128·t … 128·t + 127, all
  2048 lanes. The two rows and the weight are seen whole at every point. So entry (p, q) of a block at point t is
  entry (128·t + p, q) of its array, and an entry of a row or of the weight is the same entry of its array.

  Per output the argument has three steps. (1) What point t writes back, read at an entry (p, q) of its block, is the
  specification's function at the array entry (128·t + p, q): the body's arithmetic at an entry (the entrywise lemmas of
  the payload module), each operand block read at its array entry. (2) Every array entry (r, q) lies in the block of
  the point r / 128, and every point writes its block back. (3) Hence the array after the last point is the
  specification's function everywhere.
-/
import proofs.«151216_j52621939310636_1_alg».proof.Proof.Gen.KernelIdeal.Frame
import proofs.«151216_j52621939310636_1_alg».proof.Proof.Spec
import proofs.«151216_j52621939310636_1_alg».proof.Proof.Reg1Pay
import Idealize.ShloMosaic.Lib.Pipeline.Value
import Idealize.ShloMosaic.Lib.ValueIdx
import Idealize.ShloMosaic.PureOps.Ideal.Laws

noncomputable section

namespace Cert.KernelIdeal.Reg1

open Cert.KernelIdeal Cert.KernelIdeal.Gen Cert.Spec
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offset pair (0, 0) is the zero offset on both axes. -/
theorem zero_offsets : (![0, 0] : Fin 2 → Nat) = fun _ => 0 := funext fun a => by
  match a with
  | ⟨0, _⟩ => rfl
  | ⟨1, _⟩ => rfl

/-- At point t the ten row-blocked arrays are at block (t, 0). -/
theorem rowBlock_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_9.index t (0 : Fin 2) = t.val ∧ win1_9.index t (1 : Fin 2) = 0)
    ∧ (win1_10.index t (0 : Fin 2) = t.val ∧ win1_10.index t (1 : Fin 2) = 0)
    ∧ (win1_11.index t (0 : Fin 2) = t.val ∧ win1_11.index t (1 : Fin 2) = 0)
    ∧ (win1_12.index t (0 : Fin 2) = t.val ∧ win1_12.index t (1 : Fin 2) = 0) :=
  (by decide +kernel : ∀ t : Fin grid1.N, _)

/-- At every point the two rows and the weight are at block (0, 0): they are seen whole. -/
theorem wholeBlock_index : ∀ t : Fin cfg1.N,
    (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

/-- Row p of point t's block is row 128·t + p of the array. -/
def row (t : Fin cfg1.N) (p : Fin 128) : Fin 16384 :=
  ⟨t.val * 128 + p.val, by have hN : cfg1.N = 128 := N_1; have ht : t.val < cfg1.N := t.isLt; have := p.isLt; omega⟩

/-! ## The operand blocks, read at an entry -/

/-- Entry (p, q) of the block of the gate at point t is entry (128·t + p, q) of the array. -/
theorem gate_block (c : Dev nD) (t : Fin cfg1.N) (p : Fin 128) (q : Fin 2048) :
    iblk1 V c 0 t (ix2 p q) = V c main_v4_2 (ix2 (row t p) q) := by
  obtain ⟨⟨e0, e1⟩, -, -, -, -, -, -, -, -, -⟩ := rowBlock_index t
  show V c main_v4_2 (((cfg1.win 0).blk t).view.emb (ix2 p q)) = _
  refine congrArg (V c main_v4_2) (funext fun a => Fin.ext ?_)
  match a with
  | ⟨0, _⟩ => show win1_0.index t (0 : Fin 2) * 128 + 1 * p.val = t.val * 128 + p.val; rw [e0]; omega
  | ⟨1, _⟩ => show win1_0.index t (1 : Fin 2) * 2048 + 1 * q.val = q.val; rw [e1]; omega

/-- Entry (p, q) of the block of the key at point t is entry (128·t + p, q) of the array. -/
theorem key_block (c : Dev nD) (t : Fin cfg1.N) (p : Fin 128) (q : Fin 2048) :
    iblk1 V c 1 t (ix2 p q) = V c main_v4_0 (ix2 (row t p) q) := by
  obtain ⟨-, ⟨e0, e1⟩, -, -, -, -, -, -, -, -⟩ := rowBlock_index t
  show V c main_v4_0 (((cfg1.win 1).blk t).view.emb (ix2 p q)) = _
  refine congrArg (V c main_v4_0) (funext fun a => Fin.ext ?_)
  match a with
  | ⟨0, _⟩ => show win1_1.index t (0 : Fin 2) * 128 + 1 * p.val = t.val * 128 + p.val; rw [e0]; omega
  | ⟨1, _⟩ => show win1_1.index t (1 : Fin 2) * 2048 + 1 * q.val = q.val; rw [e1]; omega

/-- Entry (p, q) of the block of the value at point t is entry (128·t + p, q) of the array. -/
theorem value_block (c : Dev nD) (t : Fin cfg1.N) (p : Fin 128) (q : Fin 2048) :
    iblk1 V c 2 t (ix2 p q) = V c main_v4_1 (ix2 (row t p) q) := by
  obtain ⟨-, -, ⟨e0, e1⟩, -, -, -, -, -, -, -⟩ := rowBlock_index t
  show V c main_v4_1 (((cfg1.win 2).blk t).view.emb (ix2 p q)) = _
  refine congrArg (V c main_v4_1) (funext fun a => Fin.ext ?_)
  match a with
  | ⟨0, _⟩ => show win1_2.index t (0 : Fin 2) * 128 + 1 * p.val = t.val * 128 + p.val; rw [e0]; omega
  | ⟨1, _⟩ => show win1_2.index t (1 : Fin 2) * 2048 + 1 * q.val = q.val; rw [e1]; omega

/-- Entry (p, q) of the block of the numerator state at point t is entry (128·t + p, q) of the array. -/
theorem aa_block (c : Dev nD) (t : Fin cfg1.N) (p : Fin 128) (q : Fin 2048) :
    iblk1 V c 3 t (ix2 p q) = V c main_arg1 (ix2 (row t p) q) := by
  obtain ⟨-, -, -, ⟨e0, e1⟩, -, -, -, -, -, -⟩ := rowBlock_index t
  show V c main_arg1 (((cfg1.win 3).blk t).view.emb (ix2 p q)) = _
  refine congrArg (V c main_arg1) (funext fun a => Fin.ext ?_)
  match a with
  | ⟨0, _⟩ => show win1_3.index t (0 : Fin 2) * 128 + 1 * p.val = t.val * 128 + p.val; rw [e0]; omega
  | ⟨1, _⟩ => show win1_3.index t (1 : Fin 2) * 2048 + 1 * q.val = q.val; rw [e1]; omega

/-- Entry (p, q) of the block of the denominator state at point t is entry (128·t + p, q) of the array. -/
theorem bb_block (c : Dev nD) (t : Fin cfg1.N) (p : Fin 128) (q : Fin 2048) :
    iblk1 V c 4 t (ix2 p q) = V c main_arg2 (ix2 (row t p) q) := by
  obtain ⟨-, -, -, -, ⟨e0, e1⟩, -, -, -, -, -⟩ := rowBlock_index t
  show V c main_arg2 (((cfg1.win 4).blk t).view.emb (ix2 p q)) = _
  refine congrArg (V c main_arg2) (funext fun a => Fin.ext ?_)
  match a with
  | ⟨0, _⟩ => show win1_4.index t (0 : Fin 2) * 128 + 1 * p.val = t.val * 128 + p.val; rw [e0]; omega
  | ⟨1, _⟩ => show win1_4.index t (1 : Fin 2) * 2048 + 1 * q.val = q.val; rw [e1]; omega

/-- Entry (p, q) of the block of the exponent state at point t is entry (128·t + p, q) of the array. -/
theorem pp_block (c : Dev nD) (t : Fin cfg1.N) (p : Fin 128) (q : Fin 2048) :
    iblk1 V c 5 t (ix2 p q) = V c main_arg3 (ix2 (row t p) q) := by
  obtain ⟨-, -, -, -, -, ⟨e0, e1⟩, -, -, -, -⟩ := rowBlock_index t
  show V c main_arg3 (((cfg1.win 5).blk t).view.emb (ix2 p q)) = _
  refine congrArg (V c main_arg3) (funext fun a => Fin.ext ?_)
  match a with
  | ⟨0, _⟩ => show win1_5.index t (0 : Fin 2) * 128 + 1 * p.val = t.val * 128 + p.val; rw [e0]; omega
  | ⟨1, _⟩ => show win1_5.index t (1 : Fin 2) * 2048 + 1 * q.val = q.val; rw [e1]; omega

/-- Entry q of the time_first row as the body sees it is entry q of the row. -/
theorem timeFirst_block (c : Dev nD) (t : Fin cfg1.N) (q : Fin 2048) :
    iblk1 V c 6 t (ix2 (0 : Fin 1) q) = V c main_arg7 (ix2 (0 : Fin 1) q) := by
  obtain ⟨⟨e0, e1⟩, -, -⟩ := wholeBlock_index t
  show V c main_arg7 (((cfg1.win 6).blk t).view.emb (ix2 (0 : Fin 1) q)) = _
  refine congrArg (V c main_arg7) (funext fun a => Fin.ext ?_)
  match a with
  | ⟨0, _⟩ => show win1_6.index t (0 : Fin 2) * 1 + 1 * 0 = 0; rw [e0]
  | ⟨1, _⟩ => show win1_6.index t (1 : Fin 2) * 2048 + 1 * q.val = q.val; rw [e1]; omega

/-- Entry q of the time_decay row as the body sees it is entry q of the row. -/
theorem timeDecay_block (c : Dev nD) (t : Fin cfg1.N) (q : Fin 2048) :
    iblk1 V c 7 t (ix2 (0 : Fin 1) q) = V c main_arg8 (ix2 (0 : Fin 1) q) := by
  obtain ⟨-, ⟨e0, e1⟩, -⟩ := wholeBlock_index t
  show V c main_arg8 (((cfg1.win 7).blk t).view.emb (ix2 (0 : Fin 1) q)) = _
  refine congrArg (V c main_arg8) (funext fun a => Fin.ext ?_)
  match a with
  | ⟨0, _⟩ => show win1_7.index t (0 : Fin 2) * 1 + 1 * 0 = 0; rw [e0]
  | ⟨1, _⟩ => show win1_7.index t (1 : Fin 2) * 2048 + 1 * q.val = q.val; rw [e1]; omega

/-- Entry (j, q) of the output weight as the body sees it is entry (j, q) of the weight. -/
theorem weight_block (c : Dev nD) (t : Fin cfg1.N) (j q : Fin 2048) :
    iblk1 V c 8 t (ix2 j q) = V c main_v3 (ix2 j q) := by
  obtain ⟨-, -, ⟨e0, e1⟩⟩ := wholeBlock_index t
  show V c main_v3 (((cfg1.win 8).blk t).view.emb (ix2 j q)) = _
  refine congrArg (V c main_v3) (funext fun a => Fin.ext ?_)
  match a with
  | ⟨0, _⟩ => show win1_8.index t (0 : Fin 2) * 2048 + 1 * j.val = j.val; rw [e0]; omega
  | ⟨1, _⟩ => show win1_8.index t (1 : Fin 2) * 2048 + 1 * q.val = q.val; rw [e1]; omega

/-! ## The result blocks: where an entry sits, which entries a block holds, and that the blocks fill the array -/

/-- Entry (p, q) of point t's block of the new numerator state is entry (128·t + p, q) of the array. -/
theorem newAa_entry (t : Fin cfg1.N) (p : Fin 128) (q : Fin 2048) :
    ((cfg1.win 9).blk t).view.emb (ix2 p q) = ix2 (row t p) q := by
  obtain ⟨-, -, -, -, -, -, ⟨e0, e1⟩, -, -, -⟩ := rowBlock_index t
  funext a; apply Fin.ext
  match a with
  | ⟨0, _⟩ => show win1_9.index t (0 : Fin 2) * 128 + 1 * p.val = t.val * 128 + p.val; rw [e0]; omega
  | ⟨1, _⟩ => show win1_9.index t (1 : Fin 2) * 2048 + 1 * q.val = q.val; rw [e1]; omega

/-- An array entry is in point t's block of the new numerator state iff each coordinate is in the block's range on its axis. -/
theorem newAa_mem_block (t : Fin cfg1.N) (i : S16384x2048.Idx) :
    i ∈ ((cfg1.win 9).blk t).view.set ↔ ∀ a : Fin 2, win1_9.index t a * S128x2048.size a ≤ (i a).val ∧ (i a).val < win1_9.index t a * S128x2048.size a + S128x2048.size a := by
  show i ∈ ((View.whole main_v5_0).slice (win1_9.rect t)).set ↔ _
  rw [View.set_slice_whole, Rect.mem_set_unit]
  exact Iff.rfl

/-- Every entry (r, q) of the new numerator state is in the block of the point r / 128, which is written back. -/
theorem newAa_cover (i : S16384x2048.Idx) :
    ∃ t : Fin cfg1.N, (cfg1.win 9).flush t = true ∧ i ∈ ((cfg1.win 9).blk t).view.set := by
  have h0 : (i 0).val < 16384 := (i 0).isLt
  have h1 : (i 1).val < 2048 := (i 1).isLt
  have hN : cfg1.N = 128 := N_1
  obtain ⟨t, ht⟩ : ∃ t : Fin cfg1.N, t.val = (i 0).val / 128 := ⟨⟨(i 0).val / 128, by omega⟩, rfl⟩
  obtain ⟨-, -, -, -, -, -, ⟨e0, e1⟩, -, -, -⟩ := rowBlock_index t
  refine ⟨t, flush1_9 t, ?_⟩
  rw [newAa_mem_block]
  intro a
  match a with
  | ⟨0, _⟩ => show win1_9.index t (0 : Fin 2) * 128 ≤ (i 0).val ∧ (i 0).val < win1_9.index t (0 : Fin 2) * 128 + 128; rw [e0]; omega
  | ⟨1, _⟩ => show win1_9.index t (1 : Fin 2) * 2048 ≤ (i 1).val ∧ (i 1).val < win1_9.index t (1 : Fin 2) * 2048 + 2048; rw [e1]; omega

/-- Entry (p, q) of point t's block of the new denominator state is entry (128·t + p, q) of the array. -/
theorem newBb_entry (t : Fin cfg1.N) (p : Fin 128) (q : Fin 2048) :
    ((cfg1.win 10).blk t).view.emb (ix2 p q) = ix2 (row t p) q := by
  obtain ⟨-, -, -, -, -, -, -, ⟨e0, e1⟩, -, -⟩ := rowBlock_index t
  funext a; apply Fin.ext
  match a with
  | ⟨0, _⟩ => show win1_10.index t (0 : Fin 2) * 128 + 1 * p.val = t.val * 128 + p.val; rw [e0]; omega
  | ⟨1, _⟩ => show win1_10.index t (1 : Fin 2) * 2048 + 1 * q.val = q.val; rw [e1]; omega

/-- An array entry is in point t's block of the new denominator state iff each coordinate is in the block's range on its axis. -/
theorem newBb_mem_block (t : Fin cfg1.N) (i : S16384x2048.Idx) :
    i ∈ ((cfg1.win 10).blk t).view.set ↔ ∀ a : Fin 2, win1_10.index t a * S128x2048.size a ≤ (i a).val ∧ (i a).val < win1_10.index t a * S128x2048.size a + S128x2048.size a := by
  show i ∈ ((View.whole main_v5_1).slice (win1_10.rect t)).set ↔ _
  rw [View.set_slice_whole, Rect.mem_set_unit]
  exact Iff.rfl

/-- Every entry (r, q) of the new denominator state is in the block of the point r / 128, which is written back. -/
theorem newBb_cover (i : S16384x2048.Idx) :
    ∃ t : Fin cfg1.N, (cfg1.win 10).flush t = true ∧ i ∈ ((cfg1.win 10).blk t).view.set := by
  have h0 : (i 0).val < 16384 := (i 0).isLt
  have h1 : (i 1).val < 2048 := (i 1).isLt
  have hN : cfg1.N = 128 := N_1
  obtain ⟨t, ht⟩ : ∃ t : Fin cfg1.N, t.val = (i 0).val / 128 := ⟨⟨(i 0).val / 128, by omega⟩, rfl⟩
  obtain ⟨-, -, -, -, -, -, -, ⟨e0, e1⟩, -, -⟩ := rowBlock_index t
  refine ⟨t, flush1_10 t, ?_⟩
  rw [newBb_mem_block]
  intro a
  match a with
  | ⟨0, _⟩ => show win1_10.index t (0 : Fin 2) * 128 ≤ (i 0).val ∧ (i 0).val < win1_10.index t (0 : Fin 2) * 128 + 128; rw [e0]; omega
  | ⟨1, _⟩ => show win1_10.index t (1 : Fin 2) * 2048 ≤ (i 1).val ∧ (i 1).val < win1_10.index t (1 : Fin 2) * 2048 + 2048; rw [e1]; omega

/-- Entry (p, q) of point t's block of the new exponent state is entry (128·t + p, q) of the array. -/
theorem newPp_entry (t : Fin cfg1.N) (p : Fin 128) (q : Fin 2048) :
    ((cfg1.win 11).blk t).view.emb (ix2 p q) = ix2 (row t p) q := by
  obtain ⟨-, -, -, -, -, -, -, -, ⟨e0, e1⟩, -⟩ := rowBlock_index t
  funext a; apply Fin.ext
  match a with
  | ⟨0, _⟩ => show win1_11.index t (0 : Fin 2) * 128 + 1 * p.val = t.val * 128 + p.val; rw [e0]; omega
  | ⟨1, _⟩ => show win1_11.index t (1 : Fin 2) * 2048 + 1 * q.val = q.val; rw [e1]; omega

/-- An array entry is in point t's block of the new exponent state iff each coordinate is in the block's range on its axis. -/
theorem newPp_mem_block (t : Fin cfg1.N) (i : S16384x2048.Idx) :
    i ∈ ((cfg1.win 11).blk t).view.set ↔ ∀ a : Fin 2, win1_11.index t a * S128x2048.size a ≤ (i a).val ∧ (i a).val < win1_11.index t a * S128x2048.size a + S128x2048.size a := by
  show i ∈ ((View.whole main_v5_2).slice (win1_11.rect t)).set ↔ _
  rw [View.set_slice_whole, Rect.mem_set_unit]
  exact Iff.rfl

/-- Every entry (r, q) of the new exponent state is in the block of the point r / 128, which is written back. -/
theorem newPp_cover (i : S16384x2048.Idx) :
    ∃ t : Fin cfg1.N, (cfg1.win 11).flush t = true ∧ i ∈ ((cfg1.win 11).blk t).view.set := by
  have h0 : (i 0).val < 16384 := (i 0).isLt
  have h1 : (i 1).val < 2048 := (i 1).isLt
  have hN : cfg1.N = 128 := N_1
  obtain ⟨t, ht⟩ : ∃ t : Fin cfg1.N, t.val = (i 0).val / 128 := ⟨⟨(i 0).val / 128, by omega⟩, rfl⟩
  obtain ⟨-, -, -, -, -, -, -, -, ⟨e0, e1⟩, -⟩ := rowBlock_index t
  refine ⟨t, flush1_11 t, ?_⟩
  rw [newPp_mem_block]
  intro a
  match a with
  | ⟨0, _⟩ => show win1_11.index t (0 : Fin 2) * 128 ≤ (i 0).val ∧ (i 0).val < win1_11.index t (0 : Fin 2) * 128 + 128; rw [e0]; omega
  | ⟨1, _⟩ => show win1_11.index t (1 : Fin 2) * 2048 ≤ (i 1).val ∧ (i 1).val < win1_11.index t (1 : Fin 2) * 2048 + 2048; rw [e1]; omega

/-- Entry (p, q) of point t's block of the output is entry (128·t + p, q) of the array. -/
theorem out_entry (t : Fin cfg1.N) (p : Fin 128) (q : Fin 2048) :
    ((cfg1.win 12).blk t).view.emb (ix2 p q) = ix2 (row t p) q := by
  obtain ⟨-, -, -, -, -, -, -, -, -, ⟨e0, e1⟩⟩ := rowBlock_index t
  funext a; apply Fin.ext
  match a with
  | ⟨0, _⟩ => show win1_12.index t (0 : Fin 2) * 128 + 1 * p.val = t.val * 128 + p.val; rw [e0]; omega
  | ⟨1, _⟩ => show win1_12.index t (1 : Fin 2) * 2048 + 1 * q.val = q.val; rw [e1]; omega

/-- An array entry is in point t's block of the output iff each coordinate is in the block's range on its axis. -/
theorem out_mem_block (t : Fin cfg1.N) (i : S16384x2048.Idx) :
    i ∈ ((cfg1.win 12).blk t).view.set ↔ ∀ a : Fin 2, win1_12.index t a * S128x2048.size a ≤ (i a).val ∧ (i a).val < win1_12.index t a * S128x2048.size a + S128x2048.size a := by
  show i ∈ ((View.whole main_v5_3).slice (win1_12.rect t)).set ↔ _
  rw [View.set_slice_whole, Rect.mem_set_unit]
  exact Iff.rfl

/-- Every entry (r, q) of the output is in the block of the point r / 128, which is written back. -/
theorem out_cover (i : S16384x2048.Idx) :
    ∃ t : Fin cfg1.N, (cfg1.win 12).flush t = true ∧ i ∈ ((cfg1.win 12).blk t).view.set := by
  have h0 : (i 0).val < 16384 := (i 0).isLt
  have h1 : (i 1).val < 2048 := (i 1).isLt
  have hN : cfg1.N = 128 := N_1
  obtain ⟨t, ht⟩ : ∃ t : Fin cfg1.N, t.val = (i 0).val / 128 := ⟨⟨(i 0).val / 128, by omega⟩, rfl⟩
  obtain ⟨-, -, -, -, -, -, -, -, -, ⟨e0, e1⟩⟩ := rowBlock_index t
  refine ⟨t, flush1_12 t, ?_⟩
  rw [out_mem_block]
  intro a
  match a with
  | ⟨0, _⟩ => show win1_12.index t (0 : Fin 2) * 128 ≤ (i 0).val ∧ (i 0).val < win1_12.index t (0 : Fin 2) * 128 + 128; rw [e0]; omega
  | ⟨1, _⟩ => show win1_12.index t (1 : Fin 2) * 2048 ≤ (i 1).val ∧ (i 1).val < win1_12.index t (1 : Fin 2) * 2048 + 2048; rw [e1]; omega

/-! ## What each point writes back -/

/-- Point t writes back block t of the new numerator state  e^(pp + td − m)·aa + e^(k − m)·v,  m = max (pp + td) k. -/
theorem newAa_written (c : Dev nD) (t : Fin cfg1.N) :
    (dat1 V c).flushed 9 t = ((cfg1.win 9).blk t).view.read (Elt Ideal)
      (newAaArr (V c main_arg3) (V c main_v4_0) (V c main_v4_1) (V c main_arg1) (V c main_arg8)) := by
  show (cfg1.win 9).cut (grid1.coords t) ((dat1 V c).after 9 t) = _
  rw [after1_9]
  unfold out1_9
  rw [View.canon_unit_zero zero_offsets]
  simp only [View.ld_unit_zero (S := S128x2048) zero_offsets, View.ld_unit_zero (S := S1x2048) zero_offsets]
  funext j
  obtain ⟨p, q, rfl⟩ : ∃ (p : Fin 128) (q : Fin 2048), j = ix2 p q := ⟨j 0, j 1, eq_ix2 j⟩
  show k1_pay8 (iblk1 V c 1 t) (iblk1 V c 2 t) (iblk1 V c 3 t) (iblk1 V c 5 t) (iblk1 V c 7 t) (ix2 p q)
    = newAaArr (V c main_arg3) (V c main_v4_0) (V c main_v4_1) (V c main_arg1) (V c main_arg8) (((cfg1.win 9).blk t).view.emb (ix2 p q))
  refine (Reg1Pay.newAa_apply _ _ _ _ _ p q).trans ?_
  rw [newAa_entry, key_block, value_block, aa_block, pp_block, timeDecay_block]
  rfl

/-- Point t writes back block t of the new denominator state  e^(pp + td − m)·bb + e^(k − m). -/
theorem newBb_written (c : Dev nD) (t : Fin cfg1.N) :
    (dat1 V c).flushed 10 t = ((cfg1.win 10).blk t).view.read (Elt Ideal)
      (newBbArr (V c main_arg3) (V c main_v4_0) (V c main_arg2) (V c main_arg8)) := by
  show (cfg1.win 10).cut (grid1.coords t) ((dat1 V c).after 10 t) = _
  rw [after1_10]
  unfold out1_10
  rw [View.canon_unit_zero zero_offsets]
  simp only [View.ld_unit_zero (S := S128x2048) zero_offsets, View.ld_unit_zero (S := S1x2048) zero_offsets]
  funext j
  obtain ⟨p, q, rfl⟩ : ∃ (p : Fin 128) (q : Fin 2048), j = ix2 p q := ⟨j 0, j 1, eq_ix2 j⟩
  show k1_pay9 (iblk1 V c 1 t) (iblk1 V c 4 t) (iblk1 V c 5 t) (iblk1 V c 7 t) (ix2 p q)
    = newBbArr (V c main_arg3) (V c main_v4_0) (V c main_arg2) (V c main_arg8) (((cfg1.win 10).blk t).view.emb (ix2 p q))
  refine (Reg1Pay.newBb_apply _ _ _ _ p q).trans ?_
  rw [newBb_entry, key_block, bb_block, pp_block, timeDecay_block]
  rfl

/-- Point t writes back block t of the new exponent state  max (pp + td) k. -/
theorem newPp_written (c : Dev nD) (t : Fin cfg1.N) :
    (dat1 V c).flushed 11 t = ((cfg1.win 11).blk t).view.read (Elt Ideal)
      (newPpArr (V c main_arg3) (V c main_v4_0) (V c main_arg8)) := by
  show (cfg1.win 11).cut (grid1.coords t) ((dat1 V c).after 11 t) = _
  rw [after1_11]
  unfold out1_11
  rw [View.canon_unit_zero zero_offsets]
  simp only [View.ld_unit_zero (S := S128x2048) zero_offsets, View.ld_unit_zero (S := S1x2048) zero_offsets]
  funext j
  obtain ⟨p, q, rfl⟩ : ∃ (p : Fin 128) (q : Fin 2048), j = ix2 p q := ⟨j 0, j 1, eq_ix2 j⟩
  show k1_pay5 (iblk1 V c 1 t) (iblk1 V c 5 t) (iblk1 V c 7 t) (ix2 p q)
    = newPpArr (V c main_arg3) (V c main_v4_0) (V c main_arg8) (((cfg1.win 11).blk t).view.emb (ix2 p q))
  refine (Reg1Pay.newPp_apply _ _ _ p q).trans ?_
  rw [newPp_entry, key_block, pp_block, timeDecay_block]
  rfl

/-- Point t writes back block t of the output: row 128·t + p of  gate · wkv  against column q of the weight. -/
theorem out_written (c : Dev nD) (t : Fin cfg1.N) :
    (dat1 V c).flushed 12 t = ((cfg1.win 12).blk t).view.read (Elt Ideal)
      (outArr (V c main_v4_2) (V c main_v4_0) (V c main_v4_1) (V c main_arg1) (V c main_arg2) (V c main_arg3) (V c main_arg7) (V c main_v3)) := by
  show (cfg1.win 12).cut (grid1.coords t) ((dat1 V c).after 12 t) = _
  rw [after1_12]
  unfold out1_12
  rw [View.canon_unit_zero zero_offsets]
  simp only [View.ld_unit_zero (S := S128x2048) zero_offsets, View.ld_unit_zero (S := S1x2048) zero_offsets, View.ld_unit_zero (S := S2048x2048) zero_offsets]
  funext j
  obtain ⟨p, q, rfl⟩ : ∃ (p : Fin 128) (q : Fin 2048), j = ix2 p q := ⟨j 0, j 1, eq_ix2 j⟩
  show k1_pay1 (k1_pay10 (iblk1 V c 0 t) (iblk1 V c 1 t) (iblk1 V c 2 t) (iblk1 V c 3 t) (iblk1 V c 4 t) (iblk1 V c 5 t) (iblk1 V c 6 t))
      (k1_pay11 (iblk1 V c 8 t)) (constant (F := Ideal) S128x2048 .f32 0x00000000#32) (ix2 p q)
    = outArr (V c main_v4_2) (V c main_v4_0) (V c main_v4_1) (V c main_arg1) (V c main_arg2) (V c main_arg3) (V c main_arg7) (V c main_v3)
        (((cfg1.win 12).blk t).view.emb (ix2 p q))
  refine (Reg1Pay.out_apply _ _ _ _ _ _ _ _ p q).trans ?_
  rw [out_entry]
  show _ = outAt (V c main_v4_2) (V c main_v4_0) (V c main_v4_1) (V c main_arg1) (V c main_arg2) (V c main_arg3) (V c main_arg7) (V c main_v3) (row t p) q
  unfold outAt
  refine Finset.sum_congr rfl fun j _ => ?_
  rw [gate_block, key_block, value_block, aa_block, bb_block, pp_block, timeFirst_block, weight_block]

/-! ## The arrays after the last point -/

theorem aa_final (c : Dev nD) :
    (dat1 V c).arrAt 9 cfg1.N = newAaArr (V c main_arg3) (V c main_v4_0) (V c main_v4_1) (V c main_arg1) (V c main_arg8) :=
  (dat1 V c).arrAt_eq_of_cover 9 _ (fun t _ => newAa_written V c t) newAa_cover
theorem bb_final (c : Dev nD) :
    (dat1 V c).arrAt 10 cfg1.N = newBbArr (V c main_arg3) (V c main_v4_0) (V c main_arg2) (V c main_arg8) :=
  (dat1 V c).arrAt_eq_of_cover 10 _ (fun t _ => newBb_written V c t) newBb_cover
theorem pp_final (c : Dev nD) :
    (dat1 V c).arrAt 11 cfg1.N = newPpArr (V c main_arg3) (V c main_v4_0) (V c main_arg8) :=
  (dat1 V c).arrAt_eq_of_cover 11 _ (fun t _ => newPp_written V c t) newPp_cover
theorem out_final (c : Dev nD) :
    (dat1 V c).arrAt 12 cfg1.N = outArr (V c main_v4_2) (V c main_v4_0) (V c main_v4_1) (V c main_arg1) (V c main_arg2) (V c main_arg3) (V c main_arg7) (V c main_v3) :=
  (dat1 V c).arrAt_eq_of_cover 12 _ (fun t _ => out_written V c t) out_cover

end Cert.KernelIdeal.Reg1

end
-- ==== Proof.Glue.lean ====
/-
  From the launch memory to the four result arrays.

  The idealized kernel's @main is: four casts of the square weights to bf16 (the identity on the extended reals), then
  region 0 (the projections k, v and the gate from x, aa, the three mixing rows and the first three weights), then
  region 1 (the three new states and the output from the gate, k, v, aa, bb, pp, time_first, time_decay and the
  fourth weight). Region 1 is entered with region 0's three outputs in place and every argument as launched, so the
  four result arrays are the specification's functions of the launch contents of the arguments.
-/
import proofs.«151216_j52621939310636_1_alg».proof.Proof.Gen.KernelIdeal.Frame
import proofs.«151216_j52621939310636_1_alg».proof.Proof.Spec
import proofs.«151216_j52621939310636_1_alg».proof.Proof.Reg0
import proofs.«151216_j52621939310636_1_alg».proof.Proof.Reg1
import Idealize.ShloMosaic.Lib.StableHlo.Run

set_option maxRecDepth 16384

noncomputable section

namespace Cert.KernelIdeal.Glue

open Cert.KernelIdeal Cert.KernelIdeal.Gen Cert.Spec
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## Region 0's entry: the arguments as launched, the weights cast -/

/-- No host operation writes an argument: after the four casts it holds its launch contents. -/
theorem entry0_of_arg (c : Dev nD) (b : Ref sig .tc)
    (hb : b ≠ main_v0 ∧ b ≠ main_v1 ∧ b ≠ main_v2 ∧ b ≠ main_v3) :
    W1 m ρ c (Proc.devRef .tc b) = m ((c : Thread nD τ).loc b) :=
  (StableHlo.after_of_forall_not_mem (b := Proc.devRef .tc b) _ _ (List.forall_iff_forall_mem.mp (by
      simp only [hostOps0, List.Forall, StableHlo.unary_writes, Finset.mem_singleton]
      exact ⟨StableHlo.devRef_ne_of_ne hb.1, StableHlo.devRef_ne_of_ne hb.2.1, StableHlo.devRef_ne_of_ne hb.2.2.1, StableHlo.devRef_ne_of_ne hb.2.2.2⟩))).trans rfl

/-- A weight at region 0's entry is the launch contents of its argument: the cast to bf16 is the identity here. -/
theorem entry0_w0 (c : Dev nD) :
    (W1 m ρ c (Proc.devRef .tc main_v0) : Sq.Idx → EReal) = (m ((c : Thread nD τ).loc main_arg9) : Sq.Idx → EReal) := by
  show StableHlo.after hostOps0 (W0 m ρ c) (Proc.devRef .tc main_v0) = _
  after_results
  rfl
theorem entry0_w1 (c : Dev nD) :
    (W1 m ρ c (Proc.devRef .tc main_v1) : Sq.Idx → EReal) = (m ((c : Thread nD τ).loc main_arg10) : Sq.Idx → EReal) := by
  show StableHlo.after hostOps0 (W0 m ρ c) (Proc.devRef .tc main_v1) = _
  after_results
  rfl
theorem entry0_w2 (c : Dev nD) :
    (W1 m ρ c (Proc.devRef .tc main_v2) : Sq.Idx → EReal) = (m ((c : Thread nD τ).loc main_arg11) : Sq.Idx → EReal) := by
  show StableHlo.after hostOps0 (W0 m ρ c) (Proc.devRef .tc main_v2) = _
  after_results
  rfl
theorem entry0_w3 (c : Dev nD) :
    (W1 m ρ c (Proc.devRef .tc main_v3) : Sq.Idx → EReal) = (m ((c : Thread nD τ).loc main_arg12) : Sq.Idx → EReal) := by
  show StableHlo.after hostOps0 (W0 m ρ c) (Proc.devRef .tc main_v3) = _
  after_results
  rfl

/-! ## Region 0's exit: the three projections of the launch contents -/

/-- The key projection after region 0. -/
theorem exit0_k (c : Dev nD) :
    (W2 m ρ c (Proc.devRef .tc main_v4_0) : Big.Idx → EReal)
      = projArr (m ((c : Thread nD τ).loc main_arg0)) (m ((c : Thread nD τ).loc main_arg1)) (m ((c : Thread nD τ).loc main_arg4)) (m ((c : Thread nD τ).loc main_arg9)) := by
  refine ((W2_arr m ρ c 8).trans (Reg0.k_final (V1 m ρ) c)).trans ?_
  show projArr (W1 m ρ c (Proc.devRef .tc main_arg0)) (W1 m ρ c (Proc.devRef .tc main_arg1)) (W1 m ρ c (Proc.devRef .tc main_arg4)) (W1 m ρ c (Proc.devRef .tc main_v0)) = _
  rw [entry0_of_arg m ρ c main_arg0 (by decide), entry0_of_arg m ρ c main_arg1 (by decide), entry0_of_arg m ρ c main_arg4 (by decide), entry0_w0 m ρ c]
/-- The value projection after region 0. -/
theorem exit0_v (c : Dev nD) :
    (W2 m ρ c (Proc.devRef .tc main_v4_1) : Big.Idx → EReal)
      = projArr (m ((c : Thread nD τ).loc main_arg0)) (m ((c : Thread nD τ).loc main_arg1)) (m ((c : Thread nD τ).loc main_arg5)) (m ((c : Thread nD τ).loc main_arg10)) := by
  refine ((W2_arr m ρ c 9).trans (Reg0.v_final (V1 m ρ) c)).trans ?_
  show projArr (W1 m ρ c (Proc.devRef .tc main_arg0)) (W1 m ρ c (Proc.devRef .tc main_arg1)) (W1 m ρ c (Proc.devRef .tc main_arg5)) (W1 m ρ c (Proc.devRef .tc main_v1)) = _
  rw [entry0_of_arg m ρ c main_arg0 (by decide), entry0_of_arg m ρ c main_arg1 (by decide), entry0_of_arg m ρ c main_arg5 (by decide), entry0_w1 m ρ c]
/-- The gate after region 0. -/
theorem exit0_gate (c : Dev nD) :
    (W2 m ρ c (Proc.devRef .tc main_v4_2) : Big.Idx → EReal)
      = gateArr (m ((c : Thread nD τ).loc main_arg0)) (m ((c : Thread nD τ).loc main_arg1)) (m ((c : Thread nD τ).loc main_arg6)) (m ((c : Thread nD τ).loc main_arg11)) := by
  refine ((W2_arr m ρ c 10).trans (Reg0.gate_final (V1 m ρ) c)).trans ?_
  show gateArr (W1 m ρ c (Proc.devRef .tc main_arg0)) (W1 m ρ c (Proc.devRef .tc main_arg1)) (W1 m ρ c (Proc.devRef .tc main_arg6)) (W1 m ρ c (Proc.devRef .tc main_v2)) = _
  rw [entry0_of_arg m ρ c main_arg0 (by decide), entry0_of_arg m ρ c main_arg1 (by decide), entry0_of_arg m ρ c main_arg6 (by decide), entry0_w2 m ρ c]

/-- Region 0 reads `aa` through an input window and leaves it as entered. -/
theorem exit0_aa (c : Dev nD) : W2 m ρ c (Proc.devRef .tc main_arg1) = (m ((c : Thread nD τ).loc main_arg1)) :=
  ((W2_arr m ρ c 1).trans (((dat0 (V1 m ρ) c).arrAt_in 1 rfl _).trans (A_eq0 (V1 m ρ) c 1))).trans (entry0_of_arg m ρ c main_arg1 (by decide))
/-- A buffer that is none of region 0's arrays and none of the cast weights holds its launch contents at region 0's exit. -/
theorem exit0_of_arg (c : Dev nD) (b : Ref sig .tc) (hb : ∀ w, Pipeline.arrRef spec0 w ≠ b)
    (hb' : b ≠ main_v0 ∧ b ≠ main_v1 ∧ b ≠ main_v2 ∧ b ≠ main_v3) :
    W2 m ρ c (Proc.devRef .tc b) = m ((c : Thread nD τ).loc b) :=
  (W2_of_ne m ρ c b hb).trans (entry0_of_arg m ρ c b hb')
/-- The output weight at region 0's exit is the launch contents of its argument. -/
theorem exit0_w3 (c : Dev nD) :
    (W2 m ρ c (Proc.devRef .tc main_v3) : Sq.Idx → EReal) = (m ((c : Thread nD τ).loc main_arg12) : Sq.Idx → EReal) :=
  (W2_of_ne m ρ c main_v3 (by decide)).trans (entry0_w3 m ρ c)

/-! ## Region 1's exit: the four results -/

/-- The output array after the run. -/
theorem result_out (c : Dev nD) :
    (W3 m ρ c (Proc.devRef .tc main_v5_3) : Big.Idx → EReal)
      = outArr (gateArr (m ((c : Thread nD τ).loc main_arg0)) (m ((c : Thread nD τ).loc main_arg1)) (m ((c : Thread nD τ).loc main_arg6)) (m ((c : Thread nD τ).loc main_arg11))) (projArr (m ((c : Thread nD τ).loc main_arg0)) (m ((c : Thread nD τ).loc main_arg1)) (m ((c : Thread nD τ).loc main_arg4)) (m ((c : Thread nD τ).loc main_arg9))) (projArr (m ((c : Thread nD τ).loc main_arg0)) (m ((c : Thread nD τ).loc main_arg1)) (m ((c : Thread nD τ).loc main_arg5)) (m ((c : Thread nD τ).loc main_arg10)))
          (m ((c : Thread nD τ).loc main_arg1)) (m ((c : Thread nD τ).loc main_arg2)) (m ((c : Thread nD τ).loc main_arg3)) (m ((c : Thread nD τ).loc main_arg7)) (m ((c : Thread nD τ).loc main_arg12)) := by
  refine ((W3_arr m ρ c 12).trans (Reg1.out_final (V2 m ρ) c)).trans ?_
  show outArr (W2 m ρ c (Proc.devRef .tc main_v4_2)) (W2 m ρ c (Proc.devRef .tc main_v4_0)) (W2 m ρ c (Proc.devRef .tc main_v4_1)) (W2 m ρ c (Proc.devRef .tc main_arg1)) (W2 m ρ c (Proc.devRef .tc main_arg2)) (W2 m ρ c (Proc.devRef .tc main_arg3)) (W2 m ρ c (Proc.devRef .tc main_arg7)) (W2 m ρ c (Proc.devRef .tc main_v3)) = _
  rw [exit0_gate m ρ c, exit0_k m ρ c, exit0_v m ρ c, exit0_aa m ρ c, exit0_of_arg m ρ c main_arg2 (by decide) (by decide), exit0_of_arg m ρ c main_arg3 (by decide) (by decide), exit0_of_arg m ρ c main_arg7 (by decide) (by decide), exit0_w3 m ρ c]
/-- The new numerator state after the run. -/
theorem result_aa (c : Dev nD) :
    (W3 m ρ c (Proc.devRef .tc main_v5_0) : Big.Idx → EReal)
      = newAaArr (m ((c : Thread nD τ).loc main_arg3)) (projArr (m ((c : Thread nD τ).loc main_arg0)) (m ((c : Thread nD τ).loc main_arg1)) (m ((c : Thread nD τ).loc main_arg4)) (m ((c : Thread nD τ).loc main_arg9))) (projArr (m ((c : Thread nD τ).loc main_arg0)) (m ((c : Thread nD τ).loc main_arg1)) (m ((c : Thread nD τ).loc main_arg5)) (m ((c : Thread nD τ).loc main_arg10))) (m ((c : Thread nD τ).loc main_arg1)) (m ((c : Thread nD τ).loc main_arg8)) := by
  refine ((W3_arr m ρ c 9).trans (Reg1.aa_final (V2 m ρ) c)).trans ?_
  show newAaArr (W2 m ρ c (Proc.devRef .tc main_arg3)) (W2 m ρ c (Proc.devRef .tc main_v4_0)) (W2 m ρ c (Proc.devRef .tc main_v4_1)) (W2 m ρ c (Proc.devRef .tc main_arg1)) (W2 m ρ c (Proc.devRef .tc main_arg8)) = _
  rw [exit0_k m ρ c, exit0_v m ρ c, exit0_aa m ρ c, exit0_of_arg m ρ c main_arg3 (by decide) (by decide), exit0_of_arg m ρ c main_arg8 (by decide) (by decide)]
/-- The new denominator state after the run. -/
theorem result_bb (c : Dev nD) :
    (W3 m ρ c (Proc.devRef .tc main_v5_1) : Big.Idx → EReal)
      = newBbArr (m ((c : Thread nD τ).loc main_arg3)) (projArr (m ((c : Thread nD τ).loc main_arg0)) (m ((c : Thread nD τ).loc main_arg1)) (m ((c : Thread nD τ).loc main_arg4)) (m ((c : Thread nD τ).loc main_arg9))) (m ((c : Thread nD τ).loc main_arg2)) (m ((c : Thread nD τ).loc main_arg8)) := by
  refine ((W3_arr m ρ c 10).trans (Reg1.bb_final (V2 m ρ) c)).trans ?_
  show newBbArr (W2 m ρ c (Proc.devRef .tc main_arg3)) (W2 m ρ c (Proc.devRef .tc main_v4_0)) (W2 m ρ c (Proc.devRef .tc main_arg2)) (W2 m ρ c (Proc.devRef .tc main_arg8)) = _
  rw [exit0_k m ρ c, exit0_of_arg m ρ c main_arg2 (by decide) (by decide), exit0_of_arg m ρ c main_arg3 (by decide) (by decide), exit0_of_arg m ρ c main_arg8 (by decide) (by decide)]
/-- The new exponent state after the run. -/
theorem result_pp (c : Dev nD) :
    (W3 m ρ c (Proc.devRef .tc main_v5_2) : Big.Idx → EReal)
      = newPpArr (m ((c : Thread nD τ).loc main_arg3)) (projArr (m ((c : Thread nD τ).loc main_arg0)) (m ((c : Thread nD τ).loc main_arg1)) (m ((c : Thread nD τ).loc main_arg4)) (m ((c : Thread nD τ).loc main_arg9))) (m ((c : Thread nD τ).loc main_arg8)) := by
  refine ((W3_arr m ρ c 11).trans (Reg1.pp_final (V2 m ρ) c)).trans ?_
  show newPpArr (W2 m ρ c (Proc.devRef .tc main_arg3)) (W2 m ρ c (Proc.devRef .tc main_v4_0)) (W2 m ρ c (Proc.devRef .tc main_arg8)) = _
  rw [exit0_k m ρ c, exit0_of_arg m ρ c main_arg3 (by decide) (by decide), exit0_of_arg m ρ c main_arg8 (by decide) (by decide)]

end Cert.KernelIdeal.Glue

end
-- ==== Proof.RefValue.lean ====
import proofs.«151216_j52621939310636_1_alg».proof.Proof.Gen.ReferenceIdeal.Run
import proofs.«151216_j52621939310636_1_alg».proof.Proof.Gen.ReferenceIdeal.Read
import proofs.«151216_j52621939310636_1_alg».proof.Proof.Spec
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Read Cert.Spec
open Idealize.ShloMosaic Idealize.ShloMosaic.TcCoe

section Pieces

open Idealize.ShloMosaic.ValueIdx

/-! ### Where the reference reads its operands

A row of shape [1, 2048] broadcast over the 16384 rows is read at column `c` of the row; a product of a
[16384, 2048] array with a square weight reads the left factor at `(r, k)` and the weight at `(k, q)`. -/

/-- The row index a broadcast row is read at, for the entry `(r, c)`. -/
theorem rowIdx_ix2 (r : Fin 16384) (c : Fin 2048) :
    (fun a => match a with
      | ⟨0, _⟩ => ⟨0, Nat.one_pos⟩
      | ⟨1, _⟩ => ⟨((ix2 r c : Big.Idx) 1).val, ((ix2 r c : Big.Idx) 1).isLt⟩ : Row.Idx) = ix2 (0 : Fin 1) c :=
  funext fun a => Fin.ext (by match a with | ⟨0, _⟩ => rfl | ⟨1, _⟩ => rfl)

/-- The same for an arbitrary entry `i`: the row is read at column `i 1`. -/
theorem rowIdx_at (i : Big.Idx) :
    (fun a => match a with
      | ⟨0, _⟩ => ⟨0, Nat.one_pos⟩
      | ⟨1, _⟩ => ⟨(i 1).val, (i 1).isLt⟩ : Row.Idx) = ix2 (0 : Fin 1) ⟨(i 1).val, (i 1).isLt⟩ :=
  funext fun a => Fin.ext (by match a with | ⟨0, _⟩ => rfl | ⟨1, _⟩ => rfl)

/-- The left factor of entry `i` of a product is read at `(i 0, k)`. -/
theorem leftIdx_at (i : Big.Idx) (k : Fin 2048) :
    (fun a => match a with
      | ⟨0, _⟩ => ⟨(i 0).val, (i 0).isLt⟩
      | ⟨1, _⟩ => ⟨k.val, k.isLt⟩ : Big.Idx) = ix2 (⟨(i 0).val, (i 0).isLt⟩ : Fin 16384) k :=
  funext fun a => Fin.ext (by match a with | ⟨0, _⟩ => rfl | ⟨1, _⟩ => rfl)

/-- The weight of entry `i` of a product is read at `(k, i 1)`. -/
theorem rightIdx_at (i : Big.Idx) (k : Fin 2048) :
    (fun a => match a with
      | ⟨0, _⟩ => ⟨k.val, k.isLt⟩
      | ⟨1, _⟩ => ⟨(i 1).val, (i 1).isLt⟩ : Sq.Idx) = ix2 k (⟨(i 1).val, (i 1).isLt⟩ : Fin 2048) :=
  funext fun a => Fin.ext (by match a with | ⟨0, _⟩ => rfl | ⟨1, _⟩ => rfl)

end Pieces

section Stages

open Idealize.ShloMosaic.ValueIdx

variable (x0 x1 x2 x3 : Big.Idx → EReal) (t x7 x8 : Row.Idx → EReal) (W : Sq.Idx → EReal)

/-! ### The three mixed inputs

Each of the three token-shift mixes is `x·t + a·(1 − t)` entry by entry, the row `t` read at the entry's column. -/

theorem mixK_apply (r : Fin 16384) (j : Fin 2048) :
    val_main_v6 (F := Ideal) x0 x1 t (ix2 r j) = mix (x0 (ix2 r j)) (x1 (ix2 r j)) (t (ix2 0 j)) := by
  rw [val_main_v6_apply, val_main_v1_apply, val_main_v0_apply, val_main_v5_apply, val_main_v4_apply,
    val_main_v3_apply, val_main_v2_apply, val_main_cst_apply,
    show idx_main_v0 (ix2 r j) = ix2 (0 : Fin 1) j from rowIdx_ix2 r j,
    show idx_main_v4 (ix2 r j) = ix2 (0 : Fin 1) j from rowIdx_ix2 r j]
  simp only [Ideal.addf_def, Ideal.mulf_def, Ideal.subf_def, Ideal.ofBits_def,
    Ideal.ofBits_one_f32, mix]

theorem mixV_apply (r : Fin 16384) (j : Fin 2048) :
    val_main_v13 (F := Ideal) x0 x1 t (ix2 r j) = mix (x0 (ix2 r j)) (x1 (ix2 r j)) (t (ix2 0 j)) := by
  rw [val_main_v13_apply, val_main_v8_apply, val_main_v7_apply, val_main_v12_apply, val_main_v11_apply,
    val_main_v10_apply, val_main_v9_apply, val_main_cst_0_apply,
    show idx_main_v7 (ix2 r j) = ix2 (0 : Fin 1) j from rowIdx_ix2 r j,
    show idx_main_v11 (ix2 r j) = ix2 (0 : Fin 1) j from rowIdx_ix2 r j]
  simp only [Ideal.addf_def, Ideal.mulf_def, Ideal.subf_def, Ideal.ofBits_def,
    Ideal.ofBits_one_f32, mix]

theorem mixR_apply (r : Fin 16384) (j : Fin 2048) :
    val_main_v20 (F := Ideal) x0 x1 t (ix2 r j) = mix (x0 (ix2 r j)) (x1 (ix2 r j)) (t (ix2 0 j)) := by
  rw [val_main_v20_apply, val_main_v15_apply, val_main_v14_apply, val_main_v19_apply, val_main_v18_apply,
    val_main_v17_apply, val_main_v16_apply, val_main_cst_1_apply,
    show idx_main_v14 (ix2 r j) = ix2 (0 : Fin 1) j from rowIdx_ix2 r j,
    show idx_main_v18 (ix2 r j) = ix2 (0 : Fin 1) j from rowIdx_ix2 r j]
  simp only [Ideal.addf_def, Ideal.mulf_def, Ideal.subf_def, Ideal.ofBits_def,
    Ideal.ofBits_one_f32, mix]

/-! ### The three projections and the gate, as whole arrays -/

/-- The key projection. -/
theorem k_eq : val_main_v28 (F := Ideal) x0 x1 t W = projArr x0 x1 t W := by
  funext i
  rw [val_main_v28_apply]
  show _ = projAt x0 x1 t W _ _
  unfold projAt
  refine Finset.sum_congr rfl fun k _ => ?_
  rw [show lidx_main_v28 i k = ix2 (⟨(i 0).val, (i 0).isLt⟩ : Fin 16384) k from leftIdx_at i k,
    show ridx_main_v28 i k = ix2 k (⟨(i 1).val, (i 1).isLt⟩ : Fin 2048) from rightIdx_at i k, mixK_apply]

/-- The value projection. -/
theorem v_eq : val_main_v29 (F := Ideal) x0 x1 t W = projArr x0 x1 t W := by
  funext i
  rw [val_main_v29_apply]
  show _ = projAt x0 x1 t W _ _
  unfold projAt
  refine Finset.sum_congr rfl fun k _ => ?_
  rw [show lidx_main_v29 i k = ix2 (⟨(i 0).val, (i 0).isLt⟩ : Fin 16384) k from leftIdx_at i k,
    show ridx_main_v29 i k = ix2 k (⟨(i 1).val, (i 1).isLt⟩ : Fin 2048) from rightIdx_at i k, mixV_apply]

/-- The gate's projection, before the logistic. -/
theorem r_eq : val_main_v21 (F := Ideal) x0 x1 t W = projArr x0 x1 t W := by
  funext i
  rw [val_main_v21_apply]
  show _ = projAt x0 x1 t W _ _
  unfold projAt
  refine Finset.sum_congr rfl fun k _ => ?_
  rw [show lidx_main_v21 i k = ix2 (⟨(i 0).val, (i 0).isLt⟩ : Fin 16384) k from leftIdx_at i k,
    show ridx_main_v21 i k = ix2 k (⟨(i 1).val, (i 1).isLt⟩ : Fin 2048) from rightIdx_at i k, mixR_apply]

/-- The gate: `1 / (1 + e^(−z))` of its projection. -/
theorem gate_eq : val_main_v27 (F := Ideal) x0 x1 t W = gateArr x0 x1 t W := by
  funext i
  rw [val_main_v27_apply, val_main_v26_apply, val_main_cst_3_apply, val_main_v25_apply, val_main_v24_apply,
    val_main_cst_2_apply, val_main_v23_apply, val_main_v22_apply, r_eq]
  simp only [Ideal.hostDivf_def, Ideal.addf_def, Ideal.hostUnary_exp_def, Ideal.hostNegf_def, Ideal.negf_def,
    Ideal.ofBits_def, Ideal.ofBits_one_f32, gateArr, Cert.Spec.sig]

end Stages

section Output

open Idealize.ShloMosaic.ValueIdx

variable (x0 x1 x2 x3 : Big.Idx → EReal) (x4 x5 x6 x7 : Row.Idx → EReal) (x9 x10 x11 : Sq.Idx → EReal)

/-- The left factor of the output product at `(r, j)`: the gate times the stabilised weighted average. With
    `ww = tf + k` and `qq = max pp ww` the average is
    `(e^(pp−qq)·aa + e^(ww−qq)·v) / (e^(pp−qq)·bb + e^(ww−qq))`. -/
theorem gated_wkv_apply (r : Fin 16384) (j : Fin 2048) :
    val_main_v55 (F := Ideal) x0 x1 x2 x3 x4 x5 x6 x7 x9 x10 x11 (ix2 r j)
      = gateArr x0 x1 x6 x11 (ix2 r j)
          * wkv (x3 (ix2 r j)) (projArr x0 x1 x4 x9 (ix2 r j)) (projArr x0 x1 x5 x10 (ix2 r j))
              (x1 (ix2 r j)) (x2 (ix2 r j)) (x7 (ix2 0 j)) := by
  rw [val_main_v55_apply, val_main_v42_apply, val_main_v39_apply, val_main_v41_apply, val_main_v37_apply,
    val_main_v38_apply, val_main_v40_apply, val_main_v34_apply, val_main_v36_apply, val_main_v33_apply,
    val_main_v35_apply, val_main_v32_apply, val_main_v31_apply, val_main_v30_apply,
    show idx_main_v30 (ix2 r j) = ix2 (0 : Fin 1) j from rowIdx_ix2 r j, gate_eq, k_eq, v_eq]
  simp only [Ideal.addf_def, Ideal.mulf_def, Ideal.subf_def, Ideal.maximumf_def, Ideal.hostUnary_exp_def,
    Ideal.hostDivf_def, wkv]

end Output

variable (x0 x1 x2 x3 : Big.Idx → EReal) (x4 x5 x6 x7 x8 : Row.Idx → EReal) (x9 x10 x11 x12 : Sq.Idx → EReal)

theorem out_eq :
    val_main_v56 (F := Ideal) x0 x1 x2 x3 x4 x5 x6 x7 x9 x10 x11 x12
      = outArr (gateArr x0 x1 x6 x11) (projArr x0 x1 x4 x9) (projArr x0 x1 x5 x10) x1 x2 x3 x7 x12 := by
  funext i
  rw [val_main_v56_apply]
  show _ = outAt _ _ _ x1 x2 x3 x7 x12 _ _
  unfold outAt
  refine Finset.sum_congr rfl fun k _ => ?_
  rw [show lidx_main_v56 i k = ValueIdx.ix2 (⟨(i 0).val, (i 0).isLt⟩ : Fin 16384) k from leftIdx_at i k,
    show ridx_main_v56 i k = ValueIdx.ix2 k (⟨(i 1).val, (i 1).isLt⟩ : Fin 2048) from rightIdx_at i k,
    gated_wkv_apply]
theorem aa_eq :
    val_main_v52 (F := Ideal) x0 x1 x3 x4 x5 x8 x9 x10
      = newAaArr x3 (projArr x0 x1 x4 x9) (projArr x0 x1 x5 x10) x1 x8 := by
  funext i
  rw [val_main_v52_apply, val_main_v50_apply, val_main_v51_apply, val_main_v47_apply, val_main_v49_apply,
    val_main_v46_apply, val_main_v48_apply, val_main_v45_apply, val_main_v44_apply, val_main_v43_apply,
    show idx_main_v43 i = ValueIdx.ix2 (0 : Fin 1) ⟨(i 1).val, (i 1).isLt⟩ from rowIdx_at i, k_eq, v_eq]
  simp only [Ideal.addf_def, Ideal.mulf_def, Ideal.subf_def, Ideal.maximumf_def, Ideal.hostUnary_exp_def,
    newAaArr, newAa]
  rfl
theorem bb_eq :
    val_main_v54 (F := Ideal) x0 x1 x2 x3 x4 x8 x9
      = newBbArr x3 (projArr x0 x1 x4 x9) x2 x8 := by
  funext i
  rw [val_main_v54_apply, val_main_v53_apply, val_main_v47_apply, val_main_v49_apply,
    val_main_v46_apply, val_main_v48_apply, val_main_v45_apply, val_main_v44_apply, val_main_v43_apply,
    show idx_main_v43 i = ValueIdx.ix2 (0 : Fin 1) ⟨(i 1).val, (i 1).isLt⟩ from rowIdx_at i, k_eq]
  simp only [Ideal.addf_def, Ideal.mulf_def, Ideal.subf_def, Ideal.maximumf_def, Ideal.hostUnary_exp_def,
    newBbArr, newBb]
  rfl
theorem pp_eq :
    val_main_v45 (F := Ideal) x0 x1 x3 x4 x8 x9
      = newPpArr x3 (projArr x0 x1 x4 x9) x8 := by
  funext i
  rw [val_main_v45_apply, val_main_v44_apply, val_main_v43_apply,
    show idx_main_v43 i = ValueIdx.ix2 (0 : Fin 1) ⟨(i 1).val, (i 1).isLt⟩ from rowIdx_at i, k_eq]
  simp only [Ideal.addf_def, Ideal.maximumf_def, newPpArr, newPp]
  rfl

end Cert.ReferenceIdeal.RefValue

end
-- ==== Proof.lean ====
/-
  The kernel against its reference on the extended reals.

  Both programs compute, from x, aa, bb, pp, five rows and four square weights, the same four arrays (Proof/Spec.lean):
  the three projections  Σ_j (x·t + aa·(1 − t))[r,j] · W[j,q]  (k, v, and the gate's argument; the gate is the logistic,
  the quotient 1 / (1 + e^(−z))), then entry by entry the stabilised weighted average
  wkv = (e^(pp−qq)·aa + e^(ww−qq)·v) / (e^(pp−qq)·bb + e^(ww−qq))  with ww = tf + k, qq = max(pp, ww), the three new
  states  e^(ww2−qq2)·aa + e^(k−qq2)·v,  e^(ww2−qq2)·bb + e^(k−qq2),  qq2 = max(pp + td, k), and the output
  Σ_j (gate·wkv)[r,j] · Wo[j,q].

  The kernel does it in two grid regions over blocks of 128 rows, with the operands of each product cast to bf16; the
  reference in one pass over whole arrays. On the extended reals a change of float format is the identity, the kernel's
  logistic is the reference's quotient by definition, a block product into a zero accumulator is the plain sum, and the
  row blocks tile the arrays; no law beyond these is used, so the precondition is never opened.

  The pieces: Proof/Reg0.lean and Proof/Reg1.lean (what each region leaves in its output arrays, as the specification's
  functions of the region's entry contents), Proof/Glue.lean (the entry contents traced back to the launch memory),
  Proof/RunNamed.lean (the run with the result arrays named), Proof/RefValue.lean (the reference's four results are the
  same functions), and here the five claims.
-/
import proofs.«151216_j52621939310636_1_alg».proof.Defs
import proofs.«151216_j52621939310636_1_alg».proof.Proof.Gen.Kernel
import proofs.«151216_j52621939310636_1_alg».proof.Proof.Gen.Kernel.Frame
import proofs.«151216_j52621939310636_1_alg».proof.Proof.Gen.KernelIdeal
import proofs.«151216_j52621939310636_1_alg».proof.Proof.Gen.KernelIdeal.Frame
import proofs.«151216_j52621939310636_1_alg».proof.Proof.Gen.ReferenceIdeal
import proofs.«151216_j52621939310636_1_alg».proof.Proof.Gen.ReferenceIdeal.Run
import proofs.«151216_j52621939310636_1_alg».proof.Proof.Gen.ReferenceIdeal.Read
import proofs.«151216_j52621939310636_1_alg».proof.Proof.Gen.Pre_finite_inputs
import proofs.«151216_j52621939310636_1_alg».proof.Proof.Spec
import proofs.«151216_j52621939310636_1_alg».proof.Proof.RunNamed
import proofs.«151216_j52621939310636_1_alg».proof.Proof.Glue
import proofs.«151216_j52621939310636_1_alg».proof.Proof.RefValue
import Idealize.ShloMosaic.Adequacy
import Idealize.ShloMosaic.Init

noncomputable section

namespace Cert.Proof

open Idealize.ShloMosaic Idealize.SL.Sem Cert.Spec

/-- The word-level kernel runs and leaves its arguments as launched. -/
theorem frame_kernel : Cert.frame_Kernel (hKernel := Cert.Kernel.Gen.facts) (hPre_finite_inputs := Cert.Pre_finite_inputs.Gen.facts) := fun m ρ _ => Cert.Kernel.Gen.frame m ρ

/-- The idealized kernel runs and leaves its arguments as launched. -/
theorem frame_kernelIdeal : Cert.frame_KernelIdeal (hKernelIdeal := Cert.KernelIdeal.Gen.facts) (hPre_finite_inputs := Cert.Pre_finite_inputs.Gen.facts) := fun m ρ _ => Cert.KernelIdeal.Gen.frame m ρ

/-- The idealized reference runs and leaves its arguments as launched: its run with the four results dropped. -/
theorem frame_referenceIdeal : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2.2.2.2) (Cert.ReferenceIdeal.Value.run (F := Ideal) m ρ)

/-- The two idealized programs, from memories that agree on the arguments, end with the same four arrays: each is the
    specification's function of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => outArr (gateArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg11))) (projArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg9))) (projArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg10))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg12)),
    fun c => newAaArr (m ((c.tc : Thread Cert.KernelIdeal.nD Cert.KernelIdeal.τ).loc Cert.KernelIdeal.main_arg3)) (projArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg9))) (projArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg10))) (m ((c.tc : Thread Cert.KernelIdeal.nD Cert.KernelIdeal.τ).loc Cert.KernelIdeal.main_arg1)) (m ((c.tc : Thread Cert.KernelIdeal.nD Cert.KernelIdeal.τ).loc Cert.KernelIdeal.main_arg8)),
    fun c => newBbArr (m ((c.tc : Thread Cert.KernelIdeal.nD Cert.KernelIdeal.τ).loc Cert.KernelIdeal.main_arg3)) (projArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg9))) (m ((c.tc : Thread Cert.KernelIdeal.nD Cert.KernelIdeal.τ).loc Cert.KernelIdeal.main_arg2)) (m ((c.tc : Thread Cert.KernelIdeal.nD Cert.KernelIdeal.τ).loc Cert.KernelIdeal.main_arg8)),
    fun c => newPpArr (m ((c.tc : Thread Cert.KernelIdeal.nD Cert.KernelIdeal.τ).loc Cert.KernelIdeal.main_arg3)) (projArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg9))) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Named.run_named (F := Ideal) m ρ)
    obtain ⟨h0, h1, h2, h3, hargs⟩ := h c
    exact ⟨h0.trans (Cert.KernelIdeal.Glue.result_out m ρ c), h1.trans (Cert.KernelIdeal.Glue.result_aa m ρ c),
      h2.trans (Cert.KernelIdeal.Glue.result_bb m ρ c), h3.trans (Cert.KernelIdeal.Glue.result_pp m ρ c), hargs⟩
  · refine (θ_run Cert.ReferenceIdeal.defs _ _).mono (fun r h c => ?_) (Cert.ReferenceIdeal.Value.run (F := Ideal) m' ρ')
    obtain ⟨h0, h1, h2, h3, hargs⟩ := h c
    obtain ⟨e0, e1, e2, e3, e4, e5, e6, e7, e8, e9, e10, e11, e12⟩ := hagree c
    refine ⟨?_, ?_, ?_, ?_, hargs⟩
    · refine (h0.trans ((Cert.ReferenceIdeal.Read.val_main_v56_eq m' c).trans (Cert.ReferenceIdeal.RefValue.out_eq _ _ _ _ _ _ _ _ _ _ _ _))).trans ?_
      rw [e0, e1, e2, e3, e4, e5, e6, e7, e9, e10, e11, e12]
    · refine (h1.trans ((Cert.ReferenceIdeal.Read.val_main_v52_eq _ _ _ _ _ _ _ _).trans (Cert.ReferenceIdeal.RefValue.aa_eq _ _ _ _ _ _ _ _))).trans ?_
      rw [e0, e1, e3, e4, e5, e8, e9, e10]
    · refine (h2.trans ((Cert.ReferenceIdeal.Read.val_main_v54_eq _ _ _ _ _ _ _).trans (Cert.ReferenceIdeal.RefValue.bb_eq _ _ _ _ _ _ _))).trans ?_
      rw [e0, e1, e2, e3, e4, e8, e9]
    · refine (h3.trans ((Cert.ReferenceIdeal.Read.val_main_v45_eq _ _ _ _ _ _).trans (Cert.ReferenceIdeal.RefValue.pp_eq _ _ _ _ _ _))).trans ?_
      rw [e0, e1, e3, e4, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
